-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x40 : S_.BroadcastsInDim S8x40 (![] : Fin 0 → Fin S8x40.rank)
  reducesTo_S8x40_S_d0_1 : S8x40.ReducesTo [0, 1] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn_part1 {F : FTy → Type} [FloatOps F] (main_v13 : IVec S_ 1) (main_v16 : IVec S8x256x1024 1) : IVec S_ 1 :=
  let main_c_5 : IVec S_ 1 := constantI S_ 1 1#1
  let main_v17 : IVec S_ 1 := (fun x v => Host.reduce IntOp.andi x v reducesTo_S8x256x1024_S_d0_1_2 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x40 .f32) (main_arg3 : IVec S8x1 32) (main_arg4 : FVec F S8x256x1024 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x40 .f32 := Host.absf main_arg2
  let main_cst_2 : FVec F S_ .f32 := constant S_ .f32 0x7F800000#32
  let main_v10 : FVec F S8x40 .f32 := broadcastInDim S8x40 ![] bcast_S_S8x40 main_cst_2
  let main_v11 : IVec S8x40 1 := cmpf .olt main_v9 main_v10
  let main_c_3 : IVec S_ 1 := constantI S_ 1 1#1
  let main_v12 : IVec S_ 1 := (fun x v => Host.reduce IntOp.andi x v reducesTo_S8x40_S_d0_1 h_S_) main_v11 main_c_3
  let main_v13 : IVec S_ 1 := andi main_v8 main_v12
  let main_v14 : FVec F S8x256x1024 .f32 := Host.absf main_arg4
  let main_cst_4 : FVec F S_ .f32 := constant S_ .f32 0x7F800000#32
  let main_v15 : FVec F S8x256x1024 .f32 := broadcastInDim S8x256x1024 ![] bcast_S_S8x256x1024 main_cst_4
  let main_v16 : IVec S8x256x1024 1 := cmpf .olt main_v14 main_v15
  fn_part1 (F := F) main_v13 main_v16
-- ==== Kernel.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S1x1 : Shape := ⟨2, ![1, 1]⟩
abbrev S8x32x3 : Shape := ⟨3, ![8, 32, 3]⟩
abbrev S8x32 : Shape := ⟨2, ![8, 32]⟩
abbrev S8x4096 : Shape := ⟨2, ![8, 4096]⟩
abbrev S8x32x4096 : Shape := ⟨3, ![8, 32, 4096]⟩
abbrev S8x32x1 : Shape := ⟨3, ![8, 32, 1]⟩
abbrev S8x1x4096 : Shape := ⟨3, ![8, 1, 4096]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S8x1x1 : Shape := ⟨3, ![8, 1, 1]⟩
abbrev S1x1x1 : Shape := ⟨3, ![1, 1, 1]⟩

abbrev nBuf : Space → Nat
  | .hbm => 68
  | .vmem => 11
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x40, .f32⟩
  | .hbm, ⟨3, _⟩ => ⟨S8x1, .i32⟩
  | .hbm, ⟨4, _⟩ => ⟨S8x256x1024, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x1, .f32⟩
  | .hbm, ⟨24, _⟩ => ⟨S8x40, .f32⟩
  | .hbm, ⟨25, _⟩ => ⟨S8x40, .f32⟩
  | .hbm, ⟨26, _⟩ => ⟨S8x40, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S8x1, .f32⟩
  | .hbm, ⟨31, _⟩ => ⟨S8x40, .f32⟩
  | .hbm, ⟨32, _⟩ => ⟨S8x40, .f32⟩
  | .hbm, ⟨33, _⟩ => ⟨S_, .i32⟩
  | .hbm, ⟨34, _⟩ => ⟨S8x1, .i32⟩
  | .hbm, ⟨35, _⟩ => ⟨S8x1, .i1⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S8x1, .i32⟩
  | .hbm, ⟨40, _⟩ => ⟨S8x1x1, .i32⟩
  | .hbm, ⟨41, _⟩ => ⟨S1, .i32⟩
  | .hbm, ⟨42, _⟩ => ⟨S_, .i32⟩
  | .hbm, ⟨43, _⟩ => ⟨S8x1x1, .i32⟩
  | .hbm, ⟨44, _⟩ => ⟨S8x1x1, .i1⟩
  | .hbm, ⟨45, _⟩ => ⟨S1x1x1, .i32⟩
  | .hbm, ⟨46, _⟩ => ⟨S8x1x1, .i32⟩
  | .hbm, ⟨47, _⟩ => ⟨S8x1x1, .i1⟩
  | .hbm, ⟨48, _⟩ => ⟨S8x1x1, .i1⟩
  | .hbm, ⟨49, _⟩ => ⟨S_, .i1⟩
  | .hbm, ⟨50, _⟩ => ⟨S8x1, .i1⟩
  | .hbm, ⟨51, _⟩ => ⟨S8x1, .f32⟩
  | .hbm, ⟨52, _⟩ => ⟨S_, .f32⟩
  | .hbm, ⟨53, _⟩ => ⟨S8x1, .f32⟩
  | .hbm, ⟨54, _⟩ => ⟨S8x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S8x32x3, .f32⟩
  | .local _ .vmem, ⟨1, _⟩ => ⟨S8x32x3, .f32⟩
  | .local _ .vmem, ⟨2, _⟩ => ⟨S8x4096x3, .f32⟩
  | .local _ .vmem, ⟨3, _⟩ => ⟨S1x1, .f32⟩
  | .local _ .vmem, ⟨4, _⟩ => ⟨S8x32x3, .f32⟩
  | .local _ .vmem, ⟨5, _⟩ => ⟨S8x32x3, .f32⟩
  | .local _ .vmem, ⟨6, _⟩ => ⟨S8x4096x3, .f32⟩
  | .local _ .vmem, ⟨7, _⟩ => ⟨S1x1, .f32⟩
  | .local _ .vmem, ⟨8, _⟩ => ⟨S1x256x1024, .f32⟩
  | .local _ .vmem, ⟨9, _⟩ => ⟨S1x256x1024, .f32⟩
  | .local _ .vmem, ⟨10, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v10 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_cst_4 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_cst_6 : Ref sig .tc := ⟨.hbm, 65, rfl⟩
abbrev main_v18 : Ref sig .tc := ⟨.hbm, 66, rfl⟩
abbrev main_v19 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x32x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  inb_S1x1_S1x1_0_0 : ∀ a, (![0, 0] : Fin 2 → Nat) a + S1x1.size a ≤ S1x1.size a
  h_S1x1 : 0 < S1x1.numel
  inb_S8x32x3_S8x32x3_0_0_0 : ∀ a, (![0, 0, 0] : Fin 3 → Nat) a + S8x32x3.size a ≤ S8x32x3.size a
  h_S8x32x3 : 0 < S8x32x3.numel
  inb_S8x4096x3_S8x4096x3_0_0_0 : ∀ a, (![0, 0, 0] : Fin 3 → Nat) a + S8x4096x3.size a ≤ S8x4096x3.size a
  h_S8x4096x3 : 0 < S8x4096x3.numel
  reduces_S8x32x3_S8x32 : S8x32x3.Reduces [2] S8x32
  reduces_S8x4096x3_S8x4096 : S8x4096x3.Reduces [2] S8x4096
  bitsLt_bf16_f32 : FTy.bits .bf16 < FTy.bits .f32
  shapeCasts_S8x32_S8x32x1 : S8x32.ShapeCasts S8x32x1
  shapeCasts_S8x4096_S8x1x4096 : S8x4096.ShapeCasts S8x1x4096
  broadcasts_S8x32x1_S8x32x4096 : S8x32x1.Broadcasts S8x32x4096
  broadcasts_S8x1x4096_S8x32x4096 : S8x1x4096.Broadcasts S8x32x4096
  reduces_S8x32x4096_S8x32 : S8x32x4096.Reduces [2] S8x32
  reduces_S8x32_S8 : S8x32.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  reduces_S256x1_S1 : S256x1.Reduces [0] S1
  reducesTo_S8x40_S8_d1 : S8x40.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x40_0_1 : S8x1.BroadcastsInDim S8x40 (![0, 1] : Fin 2 → Fin S8x40.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  dot_S8x32x3_S8x4096x3_S8x32x4096_2_2_1_1_0_0_wf : DotDims.WF S8x32x3 S8x4096x3 S8x32x4096 [2] [2] [1] [1] [0] [0]
  gather_S8x40_S8x1x1_S8x1_n_1_0_0_1_2_11_wf : GatherDims.WF S8x40 S8x1x1 S8x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x3.size a ≤ S8x4096x3.size a
  hwx0_0 : ∀ i : grid0.Coords, EltTy.bits .f32 = 32 ∨ (Rect.block (s := S8x4096x3) S8x32x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x3.size a ≤ S8x4096x3.size a
  hwx0_1 : ∀ i : grid0.Coords, EltTy.bits .f32 = 32 ∨ (Rect.block (s := S8x4096x3) S8x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x3.size a ≤ S8x4096x3.size a
  hwx1_0 : ∀ i : grid1.Coords, EltTy.bits .f32 = 32 ∨ (Rect.block (s := S8x4096x3) S8x32x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x3.size a ≤ S8x4096x3.size a
  hwx1_1 : ∀ i : grid1.Coords, EltTy.bits .f32 = 32 ∨ (Rect.block (s := S8x4096x3) S8x4096x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S8x256x1024.size a
  hwx2_0 : ∀ i : grid2.Coords, EltTy.bits .f32 = 32 ∨ (Rect.block (s := S8x256x1024) S1x256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)

variable [Facts₀]

def dot_S8x32x3_S8x4096x3_S8x32x4096_2_2_1_1_0_0 : DotDims S8x32x3 S8x4096x3 S8x32x4096 where
  lhsContracting := [2]
  rhsContracting := [2]
  lhsNonContracting := [1]
  rhsNonContracting := [1]
  lhsBatch := [0]
  rhsBatch := [0]
  wf := dot_S8x32x3_S8x4096x3_S8x32x4096_2_2_1_1_0_0_wf
def gather_S8x40_S8x1x1_S8x1_n_1_0_0_1_2_11 : GatherDims S8x40 S8x1x1 S8x1 where
  offsetDims := []
  collapsedSliceDims := [1]
  operandBatchingDims := [0]
  startIndicesBatchingDims := [0]
  startIndexMap := [1]
  indexVectorDim := 2
  sliceSizes := ![1, 1]
  wf := gather_S8x40_S8x1x1_S8x1_n_1_0_0_1_2_11_wf

abbrev win0_0 : Pipeline.Window sig grid0 :=
  Pipeline.Window.ofSpec (Memref.whole main_arg0) S8x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x32x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x40, .f32⟩
  | .hbm, ⟨3, _⟩ => ⟨S8x1, .i32⟩
  | .hbm, ⟨4, _⟩ => ⟨S8x256x1024, .f32⟩
  | .hbm, ⟨5, _⟩ => ⟨S8x256x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x3, .f32⟩
  | .hbm, ⟨11, _⟩ => ⟨S_, .f32⟩
  | .hbm, ⟨12, _⟩ => ⟨S8x4096, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x1, .f32⟩
  | .hbm, ⟨55, _⟩ => ⟨S8x40, .f32⟩
  | .hbm, ⟨56, _⟩ => ⟨S8x40, .f32⟩
  | .hbm, ⟨57, _⟩ => ⟨S8x40, .f32⟩
  | .hbm, ⟨58, _⟩ => ⟨S_, .f32⟩
  | .hbm, ⟨59, _⟩ => ⟨S8, .f32⟩
  | .hbm, ⟨60, _⟩ => ⟨S8x1, .f32⟩
  | .hbm, ⟨61, _⟩ => ⟨S8x1, .f32⟩
  | .hbm, ⟨62, _⟩ => ⟨S8x40, .f32⟩
  | .hbm, ⟨63, _⟩ => ⟨S8x40, .f32⟩
  | .hbm, ⟨64, _⟩ => ⟨S_, .i32⟩
  | .hbm, ⟨65, _⟩ => ⟨S8x1, .i32⟩
  | .hbm, ⟨66, _⟩ => ⟨S8x1, .i1⟩
  | .hbm, ⟨67, _⟩ => ⟨S_, .i32⟩
  | .hbm, ⟨68, _⟩ => ⟨S8x1, .i32⟩
  | .hbm, ⟨69, _⟩ => ⟨S8x1, .i32⟩
  | .hbm, ⟨70, _⟩ => ⟨S8x1, .i32⟩
  | .hbm, ⟨71, _⟩ => ⟨S8x1x1, .i32⟩
  | .hbm, ⟨72, _⟩ => ⟨S1, .i32⟩
  | .hbm, ⟨73, _⟩ => ⟨S_, .i32⟩
  | .hbm, ⟨74, _⟩ => ⟨S8x1x1, .i32⟩
  | .hbm, ⟨75, _⟩ => ⟨S8x1x1, .i1⟩
  | .hbm, ⟨76, _⟩ => ⟨S1x1x1, .i32⟩
  | .hbm, ⟨77, _⟩ => ⟨S8x1x1, .i32⟩
  | .hbm, ⟨78, _⟩ => ⟨S8x1x1, .i1⟩
  | .hbm, ⟨79, _⟩ => ⟨S8x1x1, .i1⟩
  | .hbm, ⟨80, _⟩ => ⟨S_, .i1⟩
  | .hbm, ⟨81, _⟩ => ⟨S8x1, .i1⟩
  | .hbm, ⟨82, _⟩ => ⟨S8x1, .f32⟩
  | .hbm, ⟨83, _⟩ => ⟨S_, .f32⟩
  | .hbm, ⟨84, _⟩ => ⟨S8x1, .f32⟩
  | .hbm, ⟨85, _⟩ => ⟨S8x1, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev main_cst_11 : Ref sig .tc := ⟨.hbm, 42, rfl⟩
abbrev main_v25 : Ref sig .tc := ⟨.hbm, 43, rfl⟩
abbrev main_cst_12 : Ref sig .tc := ⟨.hbm, 44, rfl⟩
abbrev main_v26 : Ref sig .tc := ⟨.hbm, 45, rfl⟩
abbrev main_cst_13 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_call0_cst_0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_cst_1 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_v29 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v30 : Ref sig .tc := ⟨.hbm, 85, rfl⟩
abbrev main_cst_14 : Ref sig .tc := ⟨.hbm, 86, rfl⟩
abbrev main_v31 : Ref sig .tc := ⟨.hbm, 87, rfl⟩
abbrev main_cst_15 : Ref sig .tc := ⟨.hbm, 88, rfl⟩
abbrev main_v32 : Ref sig .tc := ⟨.hbm, 89, rfl⟩
abbrev main_v33 : Ref sig .tc := ⟨.hbm, 90, rfl⟩
abbrev main_cst_16 : Ref sig .tc := ⟨.hbm, 91, rfl⟩
abbrev main_v34 : Ref sig .tc := ⟨.hbm, 92, rfl⟩
abbrev main_cst_17 : Ref sig .tc := ⟨.hbm, 93, rfl⟩
abbrev main_v35 : Ref sig .tc := ⟨.hbm, 94, rfl⟩
abbrev main_v36 : Ref sig .tc := ⟨.hbm, 95, rfl⟩
abbrev main_cst_18 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]

class Facts₀ : Prop where
  reducesTo_S8x256x1024_S_d0_1_2 : S8x256x1024.ReducesTo [0, 1, 2] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  reducesTo_S8x40_S8_d1 : S8x40.ReducesTo [1] S8
  bcast_S8_S8x1_0 : S8.BroadcastsInDim S8x1 (![0] : Fin 1 → Fin S8x1.rank)
  bcast_S8x1_S8x40_0_1 : S8x1.BroadcastsInDim S8x40 (![0, 1] : Fin 2 → Fin S8x40.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  dot_S8x4096x3_S8x4096x3_S8x4096x4096_2_2_1_1_0_0_wf : DotDims.WF S8x4096x3 S8x4096x3 S8x4096x4096 [2] [2] [1] [1] [0] [0]
  gather_S8x40_S8x1x1_S8x1_n_1_0_0_1_2_11_wf : GatherDims.WF S8x40 S8x1x1 S8x1 [] [1] [0] [1] [0] 2 ![1, 1]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def gather_S8x40_S8x1x1_S8x1_n_1_0_0_1_2_11 : GatherDims S8x40 S8x1x1 S8x1 where
  offsetDims := []
  collapsedSliceDims := [1]
  operandBatchingDims := [0]
  startIndicesBatchingDims := [0]
  startIndexMap := [1]
  indexVectorDim := 2
  sliceSizes := ![1, 1]
  wf := gather_S8x40_S8x1x1_S8x1_n_1_0_0_1_2_11_wf

class Facts : Prop extends Facts₀ where

variable [Facts]
-- ==== Proof.KernelReads.lean ====
/-
  The host stretches of the kernel program, read at the contents of its segment boundaries.

  Between and after its three kernels the program runs short straight lines of host operations. A buffer that no
  operation of a line writes keeps across the line what it held, and a buffer on which a kernel has no output window
  keeps it across the kernel: so the second and third kernels find their inputs as launched, and each loss can be
  walked back from the last boundary to the line that wrote it. Read there, the reconstruction loss is the two
  distance kernels' totals, each divided by 32768, added; the rate loss is the logarithm kernel's total divided by a
  constant; the classification loss is minus the mean, over the eight rows, of the log-softmax of the logits taken at
  the row's label, which the host computes alone from the launch contents of the logits and the labels; and the total
  is the three, each multiplied by one, added. A one-by-one array cast to rank 0 keeps its one entry.
-/
import proofs.«115082_j11184094838809_1_alg».proof.Proof.Gen.KernelIdeal.Frame
import Idealize.ShloMosaic.Lib.ValueIdx
import Idealize.ShloMosaic.Lib.StableHlo.Run
import Idealize.ShloMosaic.Lib.Pipeline.Value

noncomputable section

open scoped BigOperators

namespace Cert.KernelIdeal.Reads

open Idealize.ShloMosaic Idealize.ShloMosaic.TcCoe Idealize.ShloMosaic.ValueIdx Idealize.SL.Sem Cert.KernelIdeal Cert.KernelIdeal.Gen

/-- The classification loss as the host computes it from the logits `t` and the labels `lab`: minus the mean, over the
    eight rows, of the log-softmax of the row taken at the row's label. -/
def clsTerm {F : FTy → Type} [FloatOps F] (t : Vec F S8x40 .f32) (lab : Vec F S8x1 .i32) : Vec F S_ .f32 :=
  Host.negf (Host.divf (Host.reduceAdd (select (Host.reduce IntOp.andi (andi (cmpi .sge (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1) (broadcastInDim S8x1x1 ![] bcast_S_S8x1x1 (constantI S_ 32 0#32))) (cmpi .sle (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1) (broadcastInDim S8x1x1 ![0, 1, 2] bcast_S1x1x1_S8x1x1_0_1_2 (broadcastInDim S1x1x1 ![2] bcast_S1_S1x1x1_2 (constantI S1 32 39#32))))) (constantI S_ 1 1#1) reducesTo_S8x1x1_S8x1_d2 h_S_) (Host.gather gather_S8x40_S8x1x1_S8x1_n_1_0_0_1_2_11 (subf (subf t (broadcastInDim S8x40 ![0, 1] bcast_S8x1_S8x40_0_1 (broadcastInDim S8x1 ![0] bcast_S8_S8x1_0 (maximumf (broadcastInDim S8 ![] bcast_S_S8 (constant S_ .f32 0xFF800000#32)) (Host.reduce FloatOps.maximumf t (constant S_ .f32 0xFF800000#32) reducesTo_S8x40_S8_d1 h_S_))))) (broadcastInDim S8x40 ![0, 1] bcast_S8x1_S8x40_0_1 (Host.log (broadcastInDim S8x1 ![0] bcast_S8_S8x1_0 (Host.reduceAdd (Host.exp (subf t (broadcastInDim S8x40 ![0, 1] bcast_S8x1_S8x40_0_1 (broadcastInDim S8x1 ![0] bcast_S8_S8x1_0 (maximumf (broadcastInDim S8 ![] bcast_S_S8 (constant S_ .f32 0xFF800000#32)) (Host.reduce FloatOps.maximumf t (constant S_ .f32 0xFF800000#32) reducesTo_S8x40_S8_d1 h_S_)))))) (constant S_ .f32 0x00000000#32) reducesTo_S8x40_S8_d1 h_S_))))) (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1)) (broadcastInDim S8x1 ![] bcast_S_S8x1 (constant S_ .f32 0x7FC00000#32))) (constant S_ .f32 0x00000000#32) reducesTo_S8x1_S_d0_1 h_S_) (constant S_ .f32 0x41000000#32))

/-! ## The classification loss's chain, in named pieces -/

section HostChain
variable {F : FTy → Type} [FloatOps F]

/-- Each row's maximum (taken against minus infinity, so an empty maximum is minus infinity), spread back over the row. -/
def rowMax (t : Vec F S8x40 .f32) : Vec F S8x40 .f32 :=
  broadcastInDim S8x40 ![0, 1] bcast_S8x1_S8x40_0_1 (broadcastInDim S8x1 ![0] bcast_S8_S8x1_0
    (maximumf (broadcastInDim S8 ![] bcast_S_S8 (constant S_ .f32 0xFF800000#32))
      (Host.reduce FloatOps.maximumf t (constant S_ .f32 0xFF800000#32) reducesTo_S8x40_S8_d1 h_S_)))

/-- The log-softmax of each row: the row less its maximum, less the logarithm of the sum over the row of the
    exponentials of that. -/
def logSoftmax (t : Vec F S8x40 .f32) : Vec F S8x40 .f32 :=
  subf (subf t (rowMax t))
    (broadcastInDim S8x40 ![0, 1] bcast_S8x1_S8x40_0_1 (Host.log (broadcastInDim S8x1 ![0] bcast_S8_S8x1_0
      (Host.reduceAdd (Host.exp (subf t (rowMax t))) (constant S_ .f32 0x00000000#32) reducesTo_S8x40_S8_d1 h_S_))))

/-- The labels as positions in a row: a negative label counts from the row's end (40 is added to it); one position
    per row, on a unit axis of its own. -/
def labelIdx (lab : Vec F S8x1 .i32) : Vec F S8x1x1 .i32 :=
  shapeCast _ (select (cmpi .slt lab (broadcastInDim S8x1 ![] bcast_S_S8x1 (constantI S_ 32 0#32)))
    (addi lab (broadcastInDim S8x1 ![] bcast_S_S8x1 (constantI S_ 32 40#32))) lab) shapeCasts_S8x1_S8x1x1

/-- Each row of `l` taken at the row's label; a quiet NaN where the position falls outside 0 … 39. -/
def takeLabel (l : Vec F S8x40 .f32) (lab : Vec F S8x1 .i32) : Vec F S8x1 .f32 :=
  select
    (Host.reduce IntOp.andi
      (andi (cmpi .sge (labelIdx lab) (broadcastInDim S8x1x1 ![] bcast_S_S8x1x1 (constantI S_ 32 0#32)))
        (cmpi .sle (labelIdx lab) (broadcastInDim S8x1x1 ![0, 1, 2] bcast_S1x1x1_S8x1x1_0_1_2
          (broadcastInDim S1x1x1 ![2] bcast_S1_S1x1x1_2 (constantI S1 32 39#32)))))
      (constantI S_ 1 1#1) reducesTo_S8x1x1_S8x1_d2 h_S_)
    (Host.gather gather_S8x40_S8x1x1_S8x1_n_1_0_0_1_2_11 l (labelIdx lab))
    (broadcastInDim S8x1 ![] bcast_S_S8x1 (constant S_ .f32 0x7FC00000#32))

/-- Minus the mean of the eight entries: their sum, divided by 8, negated. -/
def negMean (v : Vec F S8x1 .f32) : Vec F S_ .f32 :=
  Host.negf (Host.divf (Host.reduceAdd v (constant S_ .f32 0x00000000#32) reducesTo_S8x1_S_d0_1 h_S_)
    (constant S_ .f32 0x41000000#32))

/-- The classification loss is minus the mean, over the rows, of the log-softmax taken at the label. -/
theorem clsTerm_eq (t : Vec F S8x40 .f32) (lab : Vec F S8x1 .i32) :
    clsTerm t lab = negMean (takeLabel (logSoftmax t) lab) := rfl

end HostChain

/-- A buffer that none of a stretch's operations writes holds after the stretch what it held before. -/
local macro "stretch_keeps" : tactic => `(tactic| (
  refine StableHlo.after_of_forall_not_mem _ _ (List.forall_iff_forall_mem.mp ?_)
  simp only [hostOps1, hostOps2, hostOps3, hostOps3_1, hostOps3_2, hostOps3_3, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- A one-by-one array cast to rank 0 and read at the one index there: the array's one entry. Both indices sit at
    row-major position 0. -/
theorem shapeCast_unit_apply {α : Type} (x : S1x1.Idx → α) (h : S1x1.ShapeCasts S_) :
    shapeCast S_ x h ix0 = x (ix2 0 0) :=
  shapeCast_apply x h ix0 (ix2 0 0) (by
    rw [Shape.rowMajor_val_two]
    show _ = (Shape.rowMajorPi _ _).val
    rw [Shape.rowMajorPi_zero]
    rfl)

variable (m : (ℓ : Loc nD τ sig) → Buf (Elt Ideal) ℓ) (ρ : Dev nD → PrngReg)

/-! ## The arguments as the second and third kernels find them -/

theorem V2_arg0 (c : Dev nD) : V2 m ρ c main_arg0 = m ((c : Thread nD τ).loc main_arg0) := by
  calc W2 m ρ c (Proc.devRef .tc main_arg0)
    _ = W1 m ρ c (Proc.devRef .tc main_arg0) := by stretch_keeps
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

theorem V2_arg1 (c : Dev nD) : V2 m ρ c main_arg1 = m ((c : Thread nD τ).loc main_arg1) := by
  calc W2 m ρ c (Proc.devRef .tc main_arg1)
    _ = W1 m ρ c (Proc.devRef .tc main_arg1) := by stretch_keeps
    _ = W0 m ρ c (Proc.devRef .tc main_arg1) :=
        (W1_arr m ρ c 1).trans (((dat0 (V0 m ρ) c).arrAt_in 1 rfl _).trans (A_eq0 (V0 m ρ) c 1))
    _ = m ((c : Thread nD τ).loc main_arg1) := rfl

theorem V4_arg4 (c : Dev nD) : V4 m ρ c main_arg4 = m ((c : Thread nD τ).loc main_arg4) := by
  calc W4 m ρ c (Proc.devRef .tc main_arg4)
    _ = W3 m ρ c (Proc.devRef .tc main_arg4) := by stretch_keeps
    _ = W2 m ρ c (Proc.devRef .tc main_arg4) := W3_of_ne m ρ c main_arg4 (by decide)
    _ = W1 m ρ c (Proc.devRef .tc main_arg4) := by stretch_keeps
    _ = W0 m ρ c (Proc.devRef .tc main_arg4) := W1_of_ne m ρ c main_arg4 (by decide)
    _ = m ((c : Thread nD τ).loc main_arg4) := rfl

/-- The logits as the stretches after the third kernel find them: no stretch before them and no kernel writes the
    logits' buffer. -/
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := by stretch_keeps
    _ = W2 m ρ c (Proc.devRef .tc main_arg2) := W3_of_ne m ρ c main_arg2 (by decide)
    _ = W1 m ρ c (Proc.devRef .tc main_arg2) := by stretch_keeps
    _ = W0 m ρ c (Proc.devRef .tc main_arg2) := W1_of_ne m ρ c main_arg2 (by decide)
    _ = m ((c : Thread nD τ).loc main_arg2) := rfl

/-- The labels likewise. -/
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := by stretch_keeps
    _ = W2 m ρ c (Proc.devRef .tc main_arg3) := W3_of_ne m ρ c main_arg3 (by decide)
    _ = W1 m ρ c (Proc.devRef .tc main_arg3) := by stretch_keeps
    _ = W0 m ρ c (Proc.devRef .tc main_arg3) := W1_of_ne m ρ c main_arg3 (by decide)
    _ = m ((c : Thread nD τ).loc main_arg3) := rfl

/-! ## The results -/

/-- No operation of the last four stretches writes the reconstruction loss's buffer, and the third kernel has no
    window on it. -/
theorem W9_v6_walk (c : Dev nD) :
    W9 m ρ c (Proc.devRef .tc main_v6) = W4 m ρ c (Proc.devRef .tc main_v6) :=
  calc W9 m ρ c (Proc.devRef .tc main_v6)
    _ = W8 m ρ c (Proc.devRef .tc main_v6) := by stretch_keeps
    _ = W7 m ρ c (Proc.devRef .tc main_v6) := by stretch_keeps
    _ = W6 m ρ c (Proc.devRef .tc main_v6) := by stretch_keeps
    _ = W5 m ρ c (Proc.devRef .tc main_v6) := by stretch_keeps
    _ = W4 m ρ c (Proc.devRef .tc main_v6) := W5_of_ne m ρ c main_v6 (by decide)

/-- The stretch after the second kernel: the first kernel's total (already cast to rank 0) and the second's, cast
    to rank 0, each divided by the constant, added. -/
theorem W4_v6 (c : Dev nD) :
    W4 m ρ c (Proc.devRef .tc main_v6)
      = addf (F := Ideal)
          (Host.divf (F := Ideal) (W3 m ρ c (Proc.devRef .tc main_v1) : Vec Ideal S_ .f32)
            (constant (F := Ideal) S_ .f32 0x47000000#32))
          (Host.divf (F := Ideal)
            (fun i => shapeCast S_ (W3 m ρ c (Proc.devRef .tc main_v2) : S1x1.Idx → EReal) shapeCasts_S1x1_S_ i)
            (constant (F := Ideal) S_ .f32 0x47000000#32)) := by
  show StableHlo.after hostOps2 _ (Proc.devRef .tc main_v6) = _
  after_results
  rfl

/-- The first kernel's total cast to rank 0: written by the stretch after the first kernel, and the second kernel has
    no window on it. -/
theorem W3_v1 (c : Dev nD) :
    W3 m ρ c (Proc.devRef .tc main_v1)
      = fun i => shapeCast S_ (W1 m ρ c (Proc.devRef .tc main_v0) : S1x1.Idx → EReal) shapeCasts_S1x1_S_ i :=
  (W3_of_ne m ρ c main_v1 (by decide)).trans (by
    show StableHlo.after hostOps1 _ (Proc.devRef .tc main_v1) = _
    after_results
    rfl)

/-- Read at the one index: the first kernel's one entry. -/
theorem W3_v1_apply (c : Dev nD) :
    (W3 m ρ c (Proc.devRef .tc main_v1) : S_.Idx → EReal) ix0
      = (W1 m ρ c (Proc.devRef .tc main_v0) : S1x1.Idx → EReal) (ix2 0 0) :=
  (congrFun (W3_v1 m ρ c) ix0).trans (shapeCast_unit_apply _ _)

/-- The reconstruction loss: each kernel's total divided by 32768, added. -/
theorem W9_v6_apply (c : Dev nD) :
    (W9 m ρ c (Proc.devRef .tc main_v6) : S_.Idx → EReal) ix0
      = Ideal.div ((W1 m ρ c (Proc.devRef .tc main_v0) : S1x1.Idx → EReal) (ix2 0 0)) (Ideal.ofBits .f32 0x47000000#32)
        + Ideal.div ((W3 m ρ c (Proc.devRef .tc main_v2) : S1x1.Idx → EReal) (ix2 0 0)) (Ideal.ofBits .f32 0x47000000#32) := by
  refine (congrFun ((W9_v6_walk m ρ c).trans (W4_v6 m ρ c)) ix0).trans ?_
  show Ideal.div ((W3 m ρ c (Proc.devRef .tc main_v1) : S_.Idx → EReal) ix0) _
      + Ideal.div (shapeCast S_ (W3 m ρ c (Proc.devRef .tc main_v2) : S1x1.Idx → EReal) shapeCasts_S1x1_S_ ix0) _ = _
  rw [W3_v1_apply, shapeCast_unit_apply]
  rfl

/-- No operation of the last three stretches writes the rate loss's buffer. -/
theorem W9_v9_walk (c : Dev nD) :
    W9 m ρ c (Proc.devRef .tc main_v9) = W6 m ρ c (Proc.devRef .tc main_v9) :=
  calc W9 m ρ c (Proc.devRef .tc main_v9)
    _ = W8 m ρ c (Proc.devRef .tc main_v9) := by stretch_keeps
    _ = W7 m ρ c (Proc.devRef .tc main_v9) := by stretch_keeps
    _ = W6 m ρ c (Proc.devRef .tc main_v9) := by stretch_keeps

/-- The stretch after the third kernel: its total, cast to rank 0, divided by the constant. -/
theorem W6_v9 (c : Dev nD) :
    W6 m ρ c (Proc.devRef .tc main_v9)
      = Host.divf (F := Ideal) (fun i => shapeCast S_ (W5 m ρ c (Proc.devRef .tc main_v7) : S1x1.Idx → EReal) shapeCasts_S1x1_S_ i)
          (constant (F := Ideal) S_ .f32 0xC6B17218#32) := by
  show StableHlo.after hostOps3 _ (Proc.devRef .tc main_v9) = _
  after_results
  rfl

/-- The rate loss: the third kernel's total divided by the constant. -/
theorem W9_v9_apply (c : Dev nD) :
    (W9 m ρ c (Proc.devRef .tc main_v9) : S_.Idx → EReal) ix0
      = Ideal.div ((W5 m ρ c (Proc.devRef .tc main_v7) : S1x1.Idx → EReal) (ix2 0 0)) (Ideal.ofBits .f32 0xC6B17218#32) := by
  refine (congrFun ((W9_v9_walk m ρ c).trans (W6_v9 m ρ c)) ix0).trans ?_
  show Ideal.div (shapeCast S_ (W5 m ρ c (Proc.devRef .tc main_v7) : S1x1.Idx → EReal) shapeCasts_S1x1_S_ ix0) _ = _
  rw [shapeCast_unit_apply]
  rfl

/-! ## The classification loss: one lemma per stretch, at any contents on entry -/

/-- The log-softmax stretch leaves, in its result's buffer, the log-softmax of what the logits' buffer held. -/
theorem after3_1_v10 (V : Valuation τ sig (Elt Ideal)) :
    StableHlo.after hostOps3_1 V (Proc.devRef .tc main_v10)
      = logSoftmax (F := Ideal) (V (Proc.devRef .tc main_arg2)) := by
  after_results
  simp only [StableHlo.TRef.ofBuf, StableHlo.TRef.toBuf, cast_eq]
  rfl

/-- The take-along-axis stretch leaves, in its result's buffer, the rows of what the log-softmax's buffer held, each
    taken at the label the labels' buffer held. -/
theorem after3_2_v11 (V : Valuation τ sig (Elt Ideal)) :
    StableHlo.after hostOps3_2 V (Proc.devRef .tc main_v11)
      = takeLabel (F := Ideal) (V (Proc.devRef .tc main_v10)) (V (Proc.devRef .tc main_arg3)) := by
  after_results_simp
  simp only [StableHlo.TRef.ofBuf, StableHlo.TRef.toBuf, cast_eq]
  rfl

/-- The last stretch leaves, in the classification loss's buffer, minus the mean of what the taken entries' buffer
    held. -/
theorem after3_3_v14 (V : Valuation τ sig (Elt Ideal)) :
    StableHlo.after hostOps3_3 V (Proc.devRef .tc main_v14)
      = negMean (F := Ideal) (V (Proc.devRef .tc main_v11)) := by
  after_results
  rfl

/-- The classification loss: the host's chain on the launch contents of the logits and the labels. -/
theorem W9_v14 (c : Dev nD) :
    W9 m ρ c (Proc.devRef .tc main_v14) = clsTerm (m ((c : Thread nD τ).loc main_arg2)) (m ((c : Thread nD τ).loc main_arg3)) := by
  have e2 : W6 m ρ c (Proc.devRef .tc main_arg2) = m ((c : Thread nD τ).loc main_arg2) :=
    (show W6 m ρ c (Proc.devRef .tc main_arg2) = W5 m ρ c (Proc.devRef .tc main_arg2) by stretch_keeps).trans (W5_arg2 m ρ c)
  have e3 : W7 m ρ c (Proc.devRef .tc main_arg3) = m ((c : Thread nD τ).loc main_arg3) :=
    calc W7 m ρ c (Proc.devRef .tc main_arg3)
      _ = W6 m ρ c (Proc.devRef .tc main_arg3) := by stretch_keeps
      _ = W5 m ρ c (Proc.devRef .tc main_arg3) := by stretch_keeps
      _ = m ((c : Thread nD τ).loc main_arg3) := W5_arg3 m ρ c
  have e10 : W7 m ρ c (Proc.devRef .tc main_v10) = logSoftmax (F := Ideal) (m ((c : Thread nD τ).loc main_arg2)) :=
    (after3_1_v10 (W6 m ρ c)).trans (congrArg (logSoftmax (F := Ideal)) e2)
  rw [clsTerm_eq]
  exact (after3_3_v14 (W8 m ρ c)).trans
    (congrArg (negMean (F := Ideal)) ((after3_2_v11 (W7 m ρ c)).trans (congrArg₂ (takeLabel (F := Ideal)) e10 e3)))

/-! ## The total -/

/-- The last stretch leaves, in the total's buffer, the three losses each times one, added: the reconstruction and
    rate losses as their buffers held them on entry, the classification loss as the stretch itself computes it. -/
theorem after3_3_v19 (V : Valuation τ sig (Elt Ideal)) :
    StableHlo.after hostOps3_3 V (Proc.devRef .tc main_v19)
      = addf (F := Ideal)
          (addf (F := Ideal)
            (mulf (F := Ideal) (constant (F := Ideal) S_ .f32 0x3F800000#32) (V (Proc.devRef .tc main_v6)))
            (mulf (F := Ideal) (constant (F := Ideal) S_ .f32 0x3F800000#32) (negMean (F := Ideal) (V (Proc.devRef .tc main_v11)))))
          (mulf (F := Ideal) (constant (F := Ideal) S_ .f32 0x3F800000#32) (V (Proc.devRef .tc main_v9))) := by
  after_results
  rfl

/-- The total loss: the three, each times one, added. -/
theorem W9_v19_apply (c : Dev nD) :
    (W9 m ρ c (Proc.devRef .tc main_v19) : S_.Idx → EReal) ix0
      = (Ideal.ofBits .f32 0x3F800000#32 * (W9 m ρ c (Proc.devRef .tc main_v6) : S_.Idx → EReal) ix0
          + Ideal.ofBits .f32 0x3F800000#32 * (W9 m ρ c (Proc.devRef .tc main_v14) : S_.Idx → EReal) ix0)
        + Ideal.ofBits .f32 0x3F800000#32 * (W9 m ρ c (Proc.devRef .tc main_v9) : S_.Idx → EReal) ix0 := by
  have e6 : W9 m ρ c (Proc.devRef .tc main_v6) = W8 m ρ c (Proc.devRef .tc main_v6) := by stretch_keeps
  have e9 : W9 m ρ c (Proc.devRef .tc main_v9) = W8 m ρ c (Proc.devRef .tc main_v9) := by stretch_keeps
  have e14 : W9 m ρ c (Proc.devRef .tc main_v14) = negMean (F := Ideal) (W8 m ρ c (Proc.devRef .tc main_v11)) :=
    after3_3_v14 (W8 m ρ c)
  rw [e6, e9, e14]
  exact congrFun (after3_3_v19 (W8 m ρ c)) ix0

end Cert.KernelIdeal.Reads

end
-- ==== Proof.Spec.lean ====
/-
  The mathematics both programs compute, stated once over the extended reals.

  A cloud is an array of 8 batches of 4096 points in three coordinates. For two clouds `x`, `y` and a batch `n`, the
  squared distance between point `p` of `x` and point `q` of `y` is expanded as
  `|x_p|^2 + |y_q|^2 - 2 <x_p, y_q>` (`dist`), and `nearest x y n p` is its minimum over `q`: the squared distance from
  `x_p` to the nearest point of `y`. `chamSum x y` adds these over all points and batches: one direction of the
  Chamfer distance before it is averaged. Swapping the clouds swaps the two point indices (`dist_swap`), which needs
  only that addition and multiplication commute, so it holds at the infinities too; hence the minimum over the FIRST
  cloud's points at a fixed point of the second is `nearest` with the clouds exchanged (`nearest_swap`).

  `logSum l` adds the logarithms of all entries of the likelihood array.

  The one law that joins the two programs: dividing each of eight sums by 4096, adding, and dividing by 8 is dividing
  the sum of the eight by 32768 (`mean_of_means`). A division by a positive real is a product with its reciprocal on
  every extended real, and a product with a non-negative real distributes over any sum of extended reals
  (`sum_mul_coe`), so no entry has to be finite.
-/
import Idealize.ShloMosaic.PureOps.Ideal
import Idealize.ShloMosaic.PureOps.Ideal.Laws
import Idealize.ShloMosaic.Lib.ValueIdx
import Mathlib.Data.EReal.Operations
import Mathlib.Algebra.BigOperators.Fin
import Mathlib.Tactic.NormNum

noncomputable section

open scoped BigOperators

namespace Cert.Chamfer

open Idealize.ShloMosaic Idealize.ShloMosaic.ValueIdx

/-- Eight batches of 4096 points with three coordinates. -/
abbrev Cloud : Shape := ⟨3, ![8, 4096, 3]⟩
/-- Eight batches of a 256 by 1024 table of likelihoods. -/
abbrev Lik : Shape := ⟨3, ![8, 256, 1024]⟩

/-- The factor of the cross term, `2.0`. -/
abbrev two : EReal := Ideal.ofBits .f32 0x40000000#32
/-- The value a minimum starts from, `+inf`. -/
abbrev top : EReal := Ideal.ofBits .f32 0x7F800000#32

variable (x y : Cloud.Idx → EReal) (n : Fin 8) (p q : Fin 4096)

/-- The squared length of point `p` of batch `n`. -/
def sq : EReal := ∑ d : Fin 3, x (ix3 n p d) * x (ix3 n p d)

/-- The inner product of point `p` of `x` with point `q` of `y`, in batch `n`. -/
def inner : EReal := ∑ d : Fin 3, x (ix3 n p d) * y (ix3 n q d)

/-- The squared distance between them, expanded. -/
def dist : EReal := (sq x n p + sq y n q) - two * inner x y n p q

theorem inner_swap : inner x y n p q = inner y x n q p :=
  Finset.sum_congr rfl fun _ _ => mul_comm _ _

/-- Exchanging the clouds exchanges the two points. -/
theorem dist_swap : dist x y n p q = dist y x n q p := by
  unfold dist
  rw [add_comm, inner_swap]

/-- The squared distance from point `p` of `x` to the nearest point of `y`. -/
def nearest : EReal := (Finset.univ : Finset (Fin 4096)).fold min top fun q => dist x y n p q

/-- The minimum over the first cloud's points, at a fixed point `q` of the second, is `nearest` with the clouds
    exchanged. -/
theorem nearest_swap : ((Finset.univ : Finset (Fin 4096)).fold min top fun p => dist x y n p q) = nearest y x n q := by
  unfold nearest
  congr 1
  funext p
  exact dist_swap x y n p q

/-- One direction of the Chamfer distance, summed and not yet averaged. -/
def chamSum : EReal := ∑ n : Fin 8, ∑ p : Fin 4096, nearest x y n p

/-- The sum of the logarithms of all likelihoods. -/
def logSum (l : Lik.Idx → EReal) : EReal := ∑ n : Fin 8, ∑ r : Fin 256, ∑ c : Fin 1024, Ideal.log (l (ix3 n r c))

/-! ## The divisors, as reals -/

theorem lit_32768 : Ideal.ofBits .f32 0x47000000#32 = ((32768 : ℝ) : EReal) := by
  simp [Ideal.ofBits, Ideal.ieee, -EReal.coe_mul]; norm_num

theorem lit_4096 : Ideal.ofBits .f32 0x45800000#32 = ((4096 : ℝ) : EReal) := by
  simp [Ideal.ofBits, Ideal.ieee, -EReal.coe_mul]; norm_num

theorem lit_8 : Ideal.ofBits .f32 0x41000000#32 = ((8 : ℝ) : EReal) := by
  simp [Ideal.ofBits, Ideal.ieee, -EReal.coe_mul]; norm_num

/-! ## A mean of means -/

/-- A product with a non-negative real distributes over a sum of extended reals, whatever the summands. -/
theorem sum_mul_coe {ι : Type*} (s : Finset ι) (f : ι → EReal) {r : ℝ} (hr : 0 ≤ r) :
    (∑ i ∈ s, f i) * (r : EReal) = ∑ i ∈ s, f i * (r : EReal) := by
  classical
  refine Finset.induction_on s ?_ ?_
  · simp
  · intro a s ha ih
    rw [Finset.sum_insert ha, Finset.sum_insert ha, ← ih, mul_comm,
      EReal.left_distrib_of_nonneg_of_ne_top (EReal.coe_nonneg.mpr hr) (EReal.coe_ne_top r),
      mul_comm (r : EReal) (f a), mul_comm (r : EReal)]

/-- Eight sums each divided by 4096, added and divided by 8: their sum divided by 32768. -/
theorem mean_of_means (S : Fin 8 → EReal) :
    Ideal.div (∑ n : Fin 8, Ideal.div (S n) (Ideal.ofBits .f32 0x45800000#32)) (Ideal.ofBits .f32 0x41000000#32)
      = Ideal.div (∑ n : Fin 8, S n) (Ideal.ofBits .f32 0x47000000#32) := by
  rw [lit_4096, lit_8, lit_32768, Ideal.div_coe (by norm_num), Ideal.div_coe (by norm_num)]
  simp only [Ideal.div_coe (show (4096 : ℝ) ≠ 0 by norm_num)]
  rw [← sum_mul_coe _ _ (by norm_num), mul_assoc, ← EReal.coe_mul]
  congr 2
  norm_num

end Cert.Chamfer

end
-- ==== Proof.LibMinAxis.lean ====
/-
  The minimum over one axis of a rank-3 array, read at an entry (general in the sizes).

  For an array `[A, B, C]` reduced over its last axis into `[A, B]`, the source index lying over the result index
  `(p, q)` with coordinate `r` on the reduced axis is `(p, q, r)` (`lift_last`); reduced over its middle axis into
  `[A, C]`, the source index over `(p, r)` with coordinate `q` is `(p, q, r)` (`lift_middle`). At the ideal values the
  minimum of two extended reals commutes and associates, so a kernel's vector reduction with the minimum and a host's
  one-operand reduce with a minimum body are, at a result entry, the SAME fold of `min` over the reduced axis's
  coordinates of the source, started from the accumulator's (resp. the initial value's) element, in any order: what a
  nearest-neighbour search over one axis of a table of distances prints on either side.
-/
import Idealize.ShloMosaic.Lib.ValueIdx
import Idealize.ShloMosaic.PureOps.Ideal.Laws

namespace Cert.Lib.MinAxis

open Idealize.ShloMosaic Idealize.ShloMosaic.ValueIdx

variable {A B C : ℕ}

/-- Over the result index `(p, q)`, the source index with `r` on the reduced last axis is `(p, q, r)`. -/
theorem lift_last (h : (⟨3, ![A, B, C]⟩ : Shape).Reduces [(2 : Fin 3)] (⟨2, ![A, B]⟩ : Shape))
    (p : Fin A) (q : Fin B) (r : Fin C) : h.lift (ix2 p q) r = ix3 p q r := by
  funext c
  apply Fin.ext
  match c with
  | ⟨0, _⟩ => rfl
  | ⟨1, _⟩ => rfl
  | ⟨2, _⟩ => rfl

/-- Over the result index `(p, r)`, the source index with `q` on the reduced middle axis is `(p, q, r)`. -/
theorem lift_middle (h : (⟨3, ![A, B, C]⟩ : Shape).Reduces [(1 : Fin 3)] (⟨2, ![A, C]⟩ : Shape))
    (p : Fin A) (r : Fin C) (q : Fin B) : h.lift (ix2 p r) q = ix3 p q r := by
  funext c
  apply Fin.ext
  match c with
  | ⟨0, _⟩ => rfl
  | ⟨1, _⟩ => rfl
  | ⟨2, _⟩ => rfl

/-- A float vector reduction with the minimum over ONE axis, at the ideal values: the fold of `min` from the
    accumulator's value over that axis's coordinates, at any rank, axis and extents. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A kernel's minimum-reduction over the last axis, at the ideal values, read at `(p, q)`. -/
theorem multiReduction_min_last {φ : FTy} (src : FVec Ideal (⟨3, ![A, B, C]⟩ : Shape) φ) (acc : BitVec φ.bits)
    (h : (⟨3, ![A, B, C]⟩ : Shape).Reduces [(2 : Fin 3)] (⟨2, ![A, B]⟩ : Shape)) (hφ : FKind.Formats φ)
    (hacc : acc = FKind.minimumf.neutral φ hφ) (p : Fin A) (q : Fin B) :
    multiReduction .minimumf [(2 : Fin 3)] (⟨2, ![A, B]⟩ : Shape) src acc h hφ hacc (ix2 p q)
      = (Finset.univ : Finset (Fin C)).fold min (Ideal.ofBits φ acc) (fun r => src (ix3 p q r)) := by
  refine (multiReduction_minimumf_single src acc h hφ hacc (ix2 p q)).trans ?_
  exact congrArg (fun f : Fin C → EReal => (Finset.univ : Finset (Fin C)).fold min (Ideal.ofBits φ acc) f)
    (funext fun r => congrArg src (lift_last h p q r))

/-- A host's one-operand reduce with a minimum body over the last axis, at the ideal values, read at `(p, q)`: the same
    fold, from the initial value's one element. -/
theorem hostReduce_min_last {φ : FTy} {u : Shape} (x : (⟨3, ![A, B, C]⟩ : Shape).Idx → Ideal φ) (init : u.Idx → Ideal φ)
    (h' : (⟨3, ![A, B, C]⟩ : Shape).ReducesTo [(2 : Fin 3)] (⟨2, ![A, B]⟩ : Shape))
    (h : (⟨3, ![A, B, C]⟩ : Shape).Reduces [(2 : Fin 3)] (⟨2, ![A, B]⟩ : Shape)) (hu : 0 < u.numel) (p : Fin A) (q : Fin B) :
    Host.reduce (FloatOps.minimumf (F := Ideal) (φ := φ)) x init h' hu (ix2 p q)
      = (Finset.univ : Finset (Fin C)).fold min (init (Shape.Idx.first hu)) (fun r => x (ix3 p q r)) := by
  refine (Host.reduce_eq_fold_single (FloatOps.minimumf (F := Ideal) (φ := φ)) x init h' h hu (ix2 p q)).trans ?_
  exact congrArg (fun f : Fin C → EReal => (Finset.univ : Finset (Fin C)).fold min (init (Shape.Idx.first hu)) f)
    (funext fun r => congrArg x (lift_last h p q r))

/-- The same over the middle axis, read at `(p, r)`. -/
theorem hostReduce_min_middle {φ : FTy} {u : Shape} (x : (⟨3, ![A, B, C]⟩ : Shape).Idx → Ideal φ) (init : u.Idx → Ideal φ)
    (h' : (⟨3, ![A, B, C]⟩ : Shape).ReducesTo [(1 : Fin 3)] (⟨2, ![A, C]⟩ : Shape))
    (h : (⟨3, ![A, B, C]⟩ : Shape).Reduces [(1 : Fin 3)] (⟨2, ![A, C]⟩ : Shape)) (hu : 0 < u.numel) (p : Fin A) (r : Fin C) :
    Host.reduce (FloatOps.minimumf (F := Ideal) (φ := φ)) x init h' hu (ix2 p r)
      = (Finset.univ : Finset (Fin B)).fold min (init (Shape.Idx.first hu)) (fun q => x (ix3 p q r)) := by
  refine (Host.reduce_eq_fold_single (FloatOps.minimumf (F := Ideal) (φ := φ)) x init h' h hu (ix2 p r)).trans ?_
  exact congrArg (fun f : Fin B → EReal => (Finset.univ : Finset (Fin B)).fold min (init (Shape.Idx.first hu)) f)
    (funext fun q => congrArg x (lift_middle h p r q))

end Cert.Lib.MinAxis
-- ==== Proof.LibUnitAxes.lean ====
/-
  Unit axes put into an array and spread out again, read at an index (general in the sizes and the element type).

  A matrix `[a, c]` recast as `[a, 1, c]` and broadcast to `[a, b, c]` repeats each row along the new middle axis:
  the entry `(i, j, k)` is the matrix's `(i, k)`. A matrix `[b, c]` recast as `[1, b, c]` and broadcast to
  `[a, b, c]` repeats the whole matrix along the new leading axis: the entry `(i, j, k)` is the matrix's `(j, k)`.
  A column `[b, 1]` recast as `[1, b, 1]` and broadcast to `[a, b, c]` gives every entry `(i, j, k)` the column's
  value at row `j`. A recast moves no element (equal row-major positions); a broadcast reads position `0` on each
  unit axis of its operand.
-/
import Idealize.ShloMosaic.Lib.ValueIdx
import Idealize.ShloMosaic.Lib.Pipeline.Value

noncomputable section

namespace Cert.Lib.UnitAxes

open Idealize.ShloMosaic Idealize.ShloMosaic.ValueIdx

variable {α : Type} {a b c : ℕ}

/-- `[a, c]` recast as `[a, 1, c]`, at `(i, u, k)`: the matrix at `(i, k)`. -/
theorem insertMiddle_apply (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- `[a, 1, c]` broadcast to `[a, b, c]`, at `(i, j, k)`: the operand at `(i, 0, k)`. -/
theorem spreadMiddle_apply (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`, at `(i, j, k)`: the operand at `(0, j, k)`. -/
theorem spreadLeading_apply (x : (⟨3, ![1, b, c]⟩ : Shape).Idx → α) (h : (⟨3, ![1, b, c]⟩ : Shape).Broadcasts ⟨3, ![a, b, c]⟩)
    (i : Fin a) (j : Fin b) (k : Fin c) : broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, b, 1]` broadcast to `[a, b, c]`, at `(i, j, k)`: the operand at `(0, j, 0)`. -/
theorem spreadColumn_apply (x : (⟨3, ![1, b, 1]⟩ : Shape).Idx → α) (h : (⟨3, ![1, b, 1]⟩ : Shape).Broadcasts ⟨3, ![a, b, c]⟩)
    (i : Fin a) (j : Fin b) (k : Fin c) : broadcastTo ⟨3, ![a, b, c]⟩ x h (ix3 i j k) = x (ix3 (0 : Fin 1) j (0 : Fin 1)) := by
  refine broadcastTo_apply x h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

end Cert.Lib.UnitAxes

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.ChamBody.lean ====
/-
  What one grid point of the distance kernel adds to its accumulator, over the extended reals.

  The block holds 32 points in each of 8 batches; the other cloud holds 4096 points per batch. The body builds the
  table whose entry `(n, p, q)` is `|x_p|^2 + |y_q|^2 - 2 <x_p, y_q>`: the block's squared lengths spread along `q`
  through a trailing unit axis, the cloud's squared lengths spread along `p` through a middle unit axis, and the
  batched product of the two arrays contracted over the three coordinates. It takes the minimum over `q` from
  `+inf`, sums over `p`, then over `n` through a column of unit width, and adds the result to the accumulator's
  one entry. Each step is read at an entry; the sum over all of them is `pointTotal`. Both distance kernels have
  this body, and the value their first grid point resets the accumulator to is the real `0`.
-/
import proofs.«115082_j11184094838809_1_alg».proof.Proof.Gen.KernelIdeal.Skeleton
import proofs.«115082_j11184094838809_1_alg».proof.Proof.Spec
import proofs.«115082_j11184094838809_1_alg».proof.Proof.LibMinAxis
import proofs.«115082_j11184094838809_1_alg».proof.Proof.LibUnitAxes
import proofs.«115082_j11184094838809_1_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.ChamBody

open Idealize.ShloMosaic Idealize.ShloMosaic.ValueIdx Cert.KernelIdeal Cert.KernelIdeal.Gen

/-! ## A trailing unit axis, put in and spread out -/

section TrailingUnit

variable {α : Type} {a b c : ℕ}

/-- `[a, b]` recast as `[a, b, 1]`, at `(i, j, u)`: the matrix at `(i, j)`. -/
theorem appendUnit_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, at `(i, j, k)`: the operand at `(i, j, 0)`. -/
theorem spreadTrailing_apply (x : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end TrailingUnit

/-! ## A sum over one axis, read at an entry -/

section AxisSums

variable {A B C : ℕ} {φ : FTy}

/-- Over the result index `p`, the source index with `q` on the summed second axis is `(p, q)`. -/
theorem lift_last2 (h : (⟨2, ![A, B]⟩ : Shape).Reduces [(1 : Fin 2)] (⟨1, ![A]⟩ : Shape))
    (p : Fin A) (q : Fin B) : h.lift (ix1 p) q = ix2 p q := by
  funext c
  apply Fin.ext
  match c with
  | ⟨0, _⟩ => rfl
  | ⟨1, _⟩ => rfl

/-- Over the result index `q`, the source index with `p` on the summed first axis is `(p, q)`. -/
theorem lift_first2 (h : (⟨2, ![A, B]⟩ : Shape).Reduces [(0 : Fin 2)] (⟨1, ![B]⟩ : Shape))
    (q : Fin B) (p : Fin A) : h.lift (ix1 q) p = ix2 p q := by
  funext c
  apply Fin.ext
  match c with
  | ⟨0, _⟩ => rfl
  | ⟨1, _⟩ => rfl

/-- The sum over the last axis of `[A, B, C]`, at `(p, q)`. -/
theorem sum_last3 (src : FVec Ideal (⟨3, ![A, B, C]⟩ : Shape) φ) (acc : BitVec φ.bits)
    (h : (⟨3, ![A, B, C]⟩ : Shape).Reduces [(2 : Fin 3)] (⟨2, ![A, B]⟩ : Shape)) (hφ : FKind.Formats φ)
    (hacc : acc = FKind.add.neutral φ hφ) (p : Fin A) (q : Fin B) :
    multiReduction .add [(2 : Fin 3)] (⟨2, ![A, B]⟩ : Shape) src acc h hφ hacc (ix2 p q) = ∑ r : Fin C, src (ix3 p q r) := by
  refine (Ideal.multiReduction_add_single src acc h hφ hacc (ix2 p q)).trans ?_
  exact Finset.sum_congr rfl fun r _ => congrArg src (Cert.Lib.MinAxis.lift_last h p q r)

/-- The sum over the second axis of `[A, B]`, at `p`. -/
theorem sum_last2 (src : FVec Ideal (⟨2, ![A, B]⟩ : Shape) φ) (acc : BitVec φ.bits)
    (h : (⟨2, ![A, B]⟩ : Shape).Reduces [(1 : Fin 2)] (⟨1, ![A]⟩ : Shape)) (hφ : FKind.Formats φ)
    (hacc : acc = FKind.add.neutral φ hφ) (p : Fin A) :
    multiReduction .add [(1 : Fin 2)] (⟨1, ![A]⟩ : Shape) src acc h hφ hacc (ix1 p) = ∑ q : Fin B, src (ix2 p q) := by
  refine (Ideal.multiReduction_add_single src acc h hφ hacc (ix1 p)).trans ?_
  exact Finset.sum_congr rfl fun q _ => congrArg src (lift_last2 h p q)

/-- The sum over the first axis of `[A, B]`, at `q`. -/
theorem sum_first2 (src : FVec Ideal (⟨2, ![A, B]⟩ : Shape) φ) (acc : BitVec φ.bits)
    (h : (⟨2, ![A, B]⟩ : Shape).Reduces [(0 : Fin 2)] (⟨1, ![B]⟩ : Shape)) (hφ : FKind.Formats φ)
    (hacc : acc = FKind.add.neutral φ hφ) (q : Fin B) :
    multiReduction .add [(0 : Fin 2)] (⟨1, ![B]⟩ : Shape) src acc h hφ hacc (ix1 q) = ∑ p : Fin A, src (ix2 p q) := by
  refine (Ideal.multiReduction_add_single src acc h hφ hacc (ix1 q)).trans ?_
  exact Finset.sum_congr rfl fun p _ => congrArg src (lift_first2 h q p)

end AxisSums

/-! ## The cross term: the batched product of the block with the cloud -/

section Cross

/-- The product's left index keeps the batch of the output index. -/
theorem lhs_axis0 (i : S8x32x4096.Idx) (k : dot_S8x32x3_S8x4096x3_S8x32x4096_2_2_1_1_0_0.contr.Idx) :
    (dot_S8x32x3_S8x4096x3_S8x32x4096_2_2_1_1_0_0.lhsIdx i k 0).val = (i 0).val := by
  unfold DotDims.lhsIdx
  rw [dif_pos (show (0 : Fin S8x32x3.rank) ∈ dot_S8x32x3_S8x4096x3_S8x32x4096_2_2_1_1_0_0.lhsBatch by decide)]
  rfl

/-- Its point is the output's row. -/
theorem lhs_axis1 (i : S8x32x4096.Idx) (k : dot_S8x32x3_S8x4096x3_S8x32x4096_2_2_1_1_0_0.contr.Idx) :
    (dot_S8x32x3_S8x4096x3_S8x32x4096_2_2_1_1_0_0.lhsIdx i k 1).val = (i 1).val := by
  unfold DotDims.lhsIdx
  rw [dif_neg (show ¬(1 : Fin S8x32x3.rank) ∈ dot_S8x32x3_S8x4096x3_S8x32x4096_2_2_1_1_0_0.lhsBatch by decide),
    dif_pos (show (1 : Fin S8x32x3.rank) ∈ dot_S8x32x3_S8x4096x3_S8x32x4096_2_2_1_1_0_0.lhsNonContracting by decide)]
  rfl

/-- Its coordinate is the contracted one. -/
theorem lhs_axis2 (i : S8x32x4096.Idx) (k : dot_S8x32x3_S8x4096x3_S8x32x4096_2_2_1_1_0_0.contr.Idx) :
    (dot_S8x32x3_S8x4096x3_S8x32x4096_2_2_1_1_0_0.lhsIdx i k 2).val = (k ⟨0, by decide⟩).val :=
  dot_S8x32x3_S8x4096x3_S8x32x4096_2_2_1_1_0_0.lhsIdx_val_of_single rfl i k

/-- The right index keeps the batch too. -/
theorem rhs_axis0 (i : S8x32x4096.Idx) (k : dot_S8x32x3_S8x4096x3_S8x32x4096_2_2_1_1_0_0.contr.Idx) :
    (dot_S8x32x3_S8x4096x3_S8x32x4096_2_2_1_1_0_0.rhsIdx i k 0).val = (i 0).val := by
  unfold DotDims.rhsIdx
  rw [dif_pos (show (0 : Fin S8x4096x3.rank) ∈ dot_S8x32x3_S8x4096x3_S8x32x4096_2_2_1_1_0_0.rhsBatch by decide)]
  rfl

/-- Its point is the output's column. -/
theorem rhs_axis1 (i : S8x32x4096.Idx) (k : dot_S8x32x3_S8x4096x3_S8x32x4096_2_2_1_1_0_0.contr.Idx) :
    (dot_S8x32x3_S8x4096x3_S8x32x4096_2_2_1_1_0_0.rhsIdx i k 1).val = (i 2).val := by
  unfold DotDims.rhsIdx
  rw [dif_neg (show ¬(1 : Fin S8x4096x3.rank) ∈ dot_S8x32x3_S8x4096x3_S8x32x4096_2_2_1_1_0_0.rhsBatch by decide),
    dif_pos (show (1 : Fin S8x4096x3.rank) ∈ dot_S8x32x3_S8x4096x3_S8x32x4096_2_2_1_1_0_0.rhsNonContracting by decide)]
  rfl

/-- Its coordinate is the contracted one. -/
theorem rhs_axis2 (i : S8x32x4096.Idx) (k : dot_S8x32x3_S8x4096x3_S8x32x4096_2_2_1_1_0_0.contr.Idx) :
    (dot_S8x32x3_S8x4096x3_S8x32x4096_2_2_1_1_0_0.rhsIdx i k 2).val = (k ⟨0, by decide⟩).val :=
  dot_S8x32x3_S8x4096x3_S8x32x4096_2_2_1_1_0_0.rhsIdx_val_of_single rfl i k

/-- The product into the zero table, at `(n, p, q)`: the inner product of point `p` of the block with point `q` of the
    cloud, in batch `n`. -/
theorem cross_apply (x0 : Vec Ideal S8x32x3 .f32) (x1 : Vec Ideal S8x4096x3 .f32) (n : Fin 8) (p : Fin 32) (q : Fin 4096) :
    matmul (F := Ideal) dot_S8x32x3_S8x4096x3_S8x32x4096_2_2_1_1_0_0 none (truncf .bf16 x0 bitsLt_bf16_f32)
        (truncf .bf16 x1 bitsLt_bf16_f32) (constant S8x32x4096 .f32 0x00000000#32) (ix3 n p q)
      = ∑ d : Fin 3, x0 (ix3 n p d) * x1 (ix3 n q d) := by
  simp only [matmul]
  rw [Ideal.matmul_constant_zero_apply,
    ← Equiv.sum_comp (contrEquiv1 dot_S8x32x3_S8x4096x3_S8x32x4096_2_2_1_1_0_0 3 rfl rfl).symm]
  refine Finset.sum_congr rfl fun d _ => ?_
  have hd := contrEquiv1_symm_val dot_S8x32x3_S8x4096x3_S8x32x4096_2_2_1_1_0_0 3 rfl rfl d
  have el : dot_S8x32x3_S8x4096x3_S8x32x4096_2_2_1_1_0_0.lhsIdx (ix3 n p q)
      ((contrEquiv1 dot_S8x32x3_S8x4096x3_S8x32x4096_2_2_1_1_0_0 3 rfl rfl).symm d) = ix3 n p d :=
    funext fun a => Fin.ext (by
      match a with
      | ⟨0, _⟩ => exact lhs_axis0 _ _
      | ⟨1, _⟩ => exact lhs_axis1 _ _
      | ⟨2, _⟩ => exact (lhs_axis2 _ _).trans hd)
  have er : dot_S8x32x3_S8x4096x3_S8x32x4096_2_2_1_1_0_0.rhsIdx (ix3 n p q)
      ((contrEquiv1 dot_S8x32x3_S8x4096x3_S8x32x4096_2_2_1_1_0_0 3 rfl rfl).symm d) = ix3 n q d :=
    funext fun a => Fin.ext (by
      match a with
      | ⟨0, _⟩ => exact rhs_axis0 _ _
      | ⟨1, _⟩ => exact rhs_axis1 _ _
      | ⟨2, _⟩ => exact (rhs_axis2 _ _).trans hd)
  rw [el, er]
  rfl

end Cross

/-! ## One entry of the table of expanded squared distances -/

section Table

/-- The block's squared lengths, spread along the cloud's points: at `(n, p, q)` the squared length of point `p`. -/
theorem rowSq_apply (x0 : Vec Ideal S8x32x3 .f32) (hφ : FKind.Formats .f32)
    (hacc : (0x00000000#32 : BitVec 32) = FKind.add.neutral .f32 hφ) (n : Fin 8) (p : Fin 32) (q : Fin 4096) :
    broadcastTo S8x32x4096
        (shapeCast S8x32x1 (multiReduction (F := Ideal) .add [2] S8x32 (mulf x0 x0) 0x00000000#32 reduces_S8x32x3_S8x32 hφ hacc)
          shapeCasts_S8x32_S8x32x1)
        broadcasts_S8x32x1_S8x32x4096 (ix3 n p q)
      = ∑ d : Fin 3, x0 (ix3 n p d) * x0 (ix3 n p d) :=
  (spreadTrailing_apply _ _ n p q).trans ((appendUnit_apply _ _ n p 0).trans (sum_last3 _ _ _ _ _ n p))

/-- The cloud's squared lengths, spread along the block's points: at `(n, p, q)` the squared length of point `q`. -/
theorem colSq_apply (x1 : Vec Ideal S8x4096x3 .f32) (hφ : FKind.Formats .f32)
    (hacc : (0x00000000#32 : BitVec 32) = FKind.add.neutral .f32 hφ) (n : Fin 8) (p : Fin 32) (q : Fin 4096) :
    broadcastTo S8x32x4096
        (shapeCast S8x1x4096 (multiReduction (F := Ideal) .add [2] S8x4096 (mulf x1 x1) 0x00000000#32 reduces_S8x4096x3_S8x4096 hφ hacc)
          shapeCasts_S8x4096_S8x1x4096)
        broadcasts_S8x1x4096_S8x32x4096 (ix3 n p q)
      = Cert.Chamfer.sq x1 n q :=
  (Cert.Lib.UnitAxes.spreadMiddle_apply _ _ n p q).trans
    ((Cert.Lib.UnitAxes.insertMiddle_apply _ _ n 0 q).trans (sum_last3 _ _ _ _ _ n q))

end Table

/-- Over the 32 points of each of the 8 batches that the block `x0` holds: the squared distance from the point to the
    nearest of the 4096 points of the same batch in the whole other cloud `x1`; all 256 added. -/
def pointTotal (x0 : Vec Ideal S8x32x3 .f32) (x1 : Vec Ideal S8x4096x3 .f32) : EReal :=
  ∑ n : Fin 8, ∑ p : Fin 32, (Finset.univ : Finset (Fin 4096)).fold min Cert.Chamfer.top fun q =>
    ((∑ d : Fin 3, x0 (ix3 n p d) * x0 (ix3 n p d)) + Cert.Chamfer.sq x1 n q)
      - Cert.Chamfer.two * ∑ d : Fin 3, x0 (ix3 n p d) * x1 (ix3 n q d)

/-- The value the first distance kernel stores: what the accumulator held plus the point's total. -/
theorem pay0_apply (x0 : Vec Ideal S8x32x3 .f32) (x1 : Vec Ideal S8x4096x3 .f32) (xo : Vec Ideal S1x1 .f32) (j : S1x1.Idx) :
    k0_pay2 (F := Ideal) x0 x1 xo j = xo j + pointTotal x0 x1 := by
  obtain ⟨u, w, rfl⟩ : ∃ u w, j = ix2 u w := ⟨j 0, j 1, eq_ix2 j⟩
  unfold k0_pay2
  rw [addf_apply, shapeCast_self]
  refine congrArg (xo (ix2 u w) + ·) ?_
  refine (ValueLayout.shapeCast_a_a1_apply _ _ u w).trans ?_
  refine (sum_first2 _ _ _ _ _ u).trans ?_
  unfold pointTotal
  refine Finset.sum_congr rfl fun n _ => ?_
  refine (ValueLayout.shapeCast_a_a1_apply _ _ n u).trans ?_
  refine (sum_last2 _ _ _ _ _ n).trans ?_
  refine Finset.sum_congr rfl fun p _ => ?_
  refine (Cert.Lib.MinAxis.multiReduction_min_last _ _ _ _ _ n p).trans ?_
  refine congrArg (fun f : Fin 4096 → EReal => (Finset.univ : Finset (Fin 4096)).fold min Cert.Chamfer.top f)
    (funext fun q => ?_)
  rw [subf_apply, addf_apply, mulf_apply, broadcast_apply]
  exact congrArg₂ (· - ·) (congrArg₂ (· + ·) (rowSq_apply x0 _ _ n p q) (colSq_apply x1 _ _ n p q))
    (congrArg (Cert.Chamfer.two * ·) (cross_apply x0 x1 n p q))

/-- The second distance kernel's body is the same function. -/
theorem pay1_apply (x0 : Vec Ideal S8x32x3 .f32) (x1 : Vec Ideal S8x4096x3 .f32) (xo : Vec Ideal S1x1 .f32) (j : S1x1.Idx) :
    k1_pay2 (F := Ideal) x0 x1 xo j = xo j + pointTotal x0 x1 :=
  (congrFun (show k1_pay2 (F := Ideal) x0 x1 xo = k0_pay2 (F := Ideal) x0 x1 xo from rfl) j).trans
    (pay0_apply x0 x1 xo j)

/-- The reset stores zero. -/
theorem zero0_apply (j : S1x1.Idx) : k0_pay1 (F := Ideal) j = 0 :=
  Ideal.ofBits_zero_f32

theorem zero1_apply (j : S1x1.Idx) : k1_pay1 (F := Ideal) j = 0 :=
  Ideal.ofBits_zero_f32

end Cert.KernelIdeal.ChamBody

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibRunningSum.lean ====
/-
  An accumulator that adds one term per step holds, after each step, the sum of the terms so far.

  Let `a n` be the contents after step `n` of a run of `N` steps, and `g b` the term step `b` adds. If the first step
  leaves `g 0` and every later step leaves what was there plus its own term, then `a n` is the sum of `g` over the
  steps up to `n`: by induction on `n`. Stated over any commutative additive monoid and any length `N`, so that it is
  used at a grid's size without that size ever being computed.
-/
import proofs.«115082_j11184094838809_1_alg».proof.Proof.LibPartialSum

open scoped BigOperators

namespace Cert.Lib.RunningSum

open Cert.Lib.PartialSum

variable {M : Type*} [AddCommMonoid M] {N : ℕ}

theorem eq_sum_upto (a : (n : ℕ) → n < N → M) (g : Fin N → M) (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ b ∈ upto N n, g b
  | 0, h => by rw [sum_upto_zero h, h0 h]
  | n + 1, h => by rw [sum_upto_succ n h, hs n h, eq_sum_upto a g h0 hs n (Nat.lt_of_succ_lt h)]

end Cert.Lib.RunningSum
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Region0.lean ====
/-
  The first distance kernel, read as a value.

  The kernel walks the first cloud in 128 row blocks of 32 points; at every grid point it adds, to a 1 x 1 accumulator
  that stays in its staging buffer, the block's total: over the block's points, the squared distance to the nearest
  point of the whole second cloud. The first point resets the accumulator to zero before it adds. The accumulator is
  written back once, after the last point, so the result array ends at the sum of the 128 totals, which is the sum over
  all 4096 points of every batch: one direction of the Chamfer sum.
-/
import proofs.«115082_j11184094838809_1_alg».proof.Proof.Gen.KernelIdeal.Frame
import proofs.«115082_j11184094838809_1_alg».proof.Proof.ChamBody
import proofs.«115082_j11184094838809_1_alg».proof.Proof.LibPartialSum
import proofs.«115082_j11184094838809_1_alg».proof.Proof.LibRunningSum
import proofs.«115082_j11184094838809_1_alg».proof.Proof.LibBlockSum
import Idealize.ShloMosaic.Lib.Pipeline.Value
import Idealize.ShloMosaic.Lib.Tactic

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

section AnyValues

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the accumulator `xo` becomes the body's value of the two blocks and `xo`. -/
theorem out_B (c : Dev nD) (i : grid0.Coords) (a1 : Memref sig .tc .vmem S8x32x3 .f32) (h1 : a1.IsWhole)
    (a2 : Memref sig .tc .vmem S8x4096x3 .f32) (h2 : a2.IsWhole) (a3 : Memref sig .tc .vmem S1x1 .f32) (h3 : a3.IsWhole)
    (hc : ¬cond0_0 i) (x0 : Vec F S8x32x3 .f32) (x1 : Vec F S8x4096x3 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread, View.ld_unit_zero (S := S8x32x3) hz3,
    View.ld_unit_zero (S := S8x4096x3) hz3, View.ld_unit_zero (S := S1x1) hz2]

/-- The first point: the accumulator is reset to zero, then the same. -/
theorem out_A (c : Dev nD) (i : grid0.Coords) (a1 : Memref sig .tc .vmem S8x32x3 .f32) (h1 : a1.IsWhole)
    (a2 : Memref sig .tc .vmem S8x4096x3 .f32) (h2 : a2.IsWhole) (a3 : Memref sig .tc .vmem S1x1 .f32) (h3 : a3.IsWhole)
    (hc : cond0_0 i) (x0 : Vec F S8x32x3 .f32) (x1 : Vec F S8x4096x3 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S8x32x3) hz3,
    View.ld_unit_zero (S := S8x4096x3) hz3]

/-- The two blocks the body reads at point `t`, at their literal types. -/
abbrev blkSrc (c : Dev nD) (t : Fin cfg0.N) : Vec F S8x32x3 .f32 := iblk0 V c 0 t
abbrev blkOther (c : Dev nD) (t : Fin cfg0.N) : Vec F S8x4096x3 .f32 := iblk0 V c 1 t

/-- What the accumulator holds after point `n`: the body's value of the point's two blocks and of what it held before,
    from the zero the first point resets it to. -/
def acc (c : Dev nD) : (n : ℕ) → n < cfg0.N → Vec F S1x1 .f32
  | 0, h => k0_pay2 (blkSrc V c ⟨0, h⟩) (blkOther V c ⟨0, h⟩) k0_pay1
  | n + 1, h => k0_pay2 (blkSrc V c ⟨n + 1, h⟩) (blkOther V c ⟨n + 1, h⟩) (acc c n (Nat.lt_of_succ_lt h))

theorem acc_zero (c : Dev nD) (h : 0 < cfg0.N) :
    acc V c 0 h = k0_pay2 (blkSrc V c ⟨0, h⟩) (blkOther V c ⟨0, h⟩) k0_pay1 := rfl
theorem acc_succ (c : Dev nD) (n : ℕ) (h : n + 1 < cfg0.N) :
    acc V c (n + 1) h = k0_pay2 (blkSrc V c ⟨n + 1, h⟩) (blkOther V c ⟨n + 1, h⟩) (acc V c n (Nat.lt_of_succ_lt h)) := rfl

/-- The staging buffer of the output after point `n` holds the running accumulator: by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 128 := N_0
    have hB : ¬(⟨n + 1, h⟩ : Fin cfg0.N).val % 128 = 0 := by dsimp only; omega
    rw [outsAt0_B V c ⟨n + 1, h⟩ hB, out_B]
    rw [acc_succ V c n h, ← outsAt_eq c n]
    rfl

theorem lt127 : 127 < cfg0.N := by rw [show cfg0.N = 128 from N_0]; decide

/-- The last point. -/
abbrev tLast : Fin cfg0.N := ⟨127, lt127⟩

/-- The accumulator after the last point, as the contents of the 1 x 1 result array. -/
abbrev result (c : Dev nD) : Buf (Elt F) ((c : Thread nD τ).loc main_v0) := acc V c 127 lt127

/-- The one write-back, after the last point, writes it: the block is the whole 1 x 1 array. -/
theorem flushed_eq (c : Dev nD) (t : Fin cfg0.N) (hf : (cfg0.win 2).flush t = true) :
    (dat0 V c).flushed 2 t = ((cfg0.win 2).blk t).view.read (Elt F) (result V c) := by
  have hN : cfg0.N = 128 := N_0
  have h3 : t.val = 127 := by have := (flush0_2 t).mp hf; have := t.isLt; omega
  obtain rfl : t = tLast := Fin.ext h3
  show (cfg0.win 2).cut (grid0.coords tLast) ((dat0 V c).after 2 tLast) = _
  rw [after0_2, outsAt_eq]
  have hz' : (fun a => win0_2.index tLast a * main_v0.ty.shape.size a) = fun _ => 0 := funext fun a => by fin_cases a <;> decide
  exact (Memref.read_access_unit_zero (Elt F) main_v0 hz' (fun a => by rw [congrFun hz' a]; simp) (result V c)).symm

/-- So the result array ends at the accumulator after the last point. -/
theorem final (c : Dev nD) : (dat0 V c).arrAt 2 cfg0.N = result V c :=
  (dat0 V c).arrAt_eq_of_cover 2 (result V c) (flushed_eq V c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-! ## The blocks -/

/-- The first window's block index at point `t` is `(0, t, 0)`; the second window's is always `(0, 0, 0)`. -/
theorem idx_src : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx_other : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- Row `p` of the block of point `t` is row `32 t + p` of the cloud. -/
def row (t : Fin cfg0.N) (p : Fin 32) : Fin 4096 :=
  ⟨t.val * 32 + p.val, by have := t.isLt; have hN : cfg0.N = 128 := N_0; have := p.isLt; omega⟩

/-- The first window's block at point `t` holds the rows `32 t … 32 t + 31` of every batch of the first cloud. -/
theorem iblk_src_apply (c : Dev nD) (t : Fin cfg0.N) (n : Fin 8) (p : Fin 32) (d : Fin 3) :
    blkSrc V c t (ix3 n p d) = (V c main_arg0 : Vec F S8x4096x3 .f32) (ix3 n (row t p) d) := by
  obtain ⟨i0, i1, i2⟩ := idx_src t
  unfold blkSrc iblk0
  rw [View.read_apply]
  show V c main_arg0 _ = V c main_arg0 _
  congr 1
  funext a
  apply Fin.ext
  match a with
  | ⟨0, _⟩ => show win0_0.index t 0 * 8 + 1 * n.val = n.val; rw [i0]; omega
  | ⟨1, _⟩ => show win0_0.index t 1 * 32 + 1 * p.val = t.val * 32 + p.val; rw [i1]; omega
  | ⟨2, _⟩ => show win0_0.index t 2 * 3 + 1 * d.val = d.val; rw [i2]; omega

/-- The second window's block is, at every point, the whole second cloud. -/
theorem iblk_other_eq (c : Dev nD) (t : Fin cfg0.N) :
    blkOther V c t = (V c main_arg1 : Vec F S8x4096x3 .f32) := by
  obtain ⟨i0, i1, i2⟩ := idx_other t
  funext j
  unfold blkOther iblk0
  rw [View.read_apply]
  show V c main_arg1 _ = V c main_arg1 _
  congr 1
  funext a
  apply Fin.ext
  match a with
  | ⟨0, _⟩ => show win0_1.index t 0 * 8 + 1 * (j 0).val = (j 0).val; rw [i0]; omega
  | ⟨1, _⟩ => show win0_1.index t 1 * 4096 + 1 * (j 1).val = (j 1).val; rw [i1]; omega
  | ⟨2, _⟩ => show win0_1.index t 2 * 3 + 1 * (j 2).val = (j 2).val; rw [i2]; omega

end AnyValues

/-! ## At the ideal values: the sum over all points of the cloud -/

section IdealValues

open Cert.Chamfer Cert.Lib

variable (V : (c : Dev nD) → (b : Ref sig .tc) → Buf (Elt Ideal) ((c : Thread nD τ).loc b))

/-- A point's total over a block that holds rows `r p` of a cloud `X` is the sum of those rows' nearest distances. -/
theorem pointTotal_of_rows (X Y : Vec Ideal S8x4096x3 .f32) (x0 : Vec Ideal S8x32x3 .f32) (r : Fin 32 → Fin 4096)
    (h0 : ∀ n p d, x0 (ix3 n p d) = X (ix3 n (r p) d)) :
    ChamBody.pointTotal x0 Y = ∑ n : Fin 8, ∑ p : Fin 32, nearest X Y n (r p) := by
  unfold ChamBody.pointTotal Cert.Chamfer.nearest Cert.Chamfer.dist Cert.Chamfer.sq Cert.Chamfer.inner
  simp only [h0]

/-- What point `t` adds. -/
def tot (c : Dev nD) (t : Fin cfg0.N) : EReal := ChamBody.pointTotal (blkSrc V c t) (blkOther V c t)

theorem tot_eq (c : Dev nD) (t : Fin cfg0.N) :
    tot V c t = ∑ n : Fin 8, ∑ p : Fin 32, nearest (V c main_arg0) (V c main_arg1) n (row t p) :=
  (congrArg (ChamBody.pointTotal (blkSrc V c t)) (iblk_other_eq V c t)).trans
    (pointTotal_of_rows (V c main_arg0) (V c main_arg1) (blkSrc V c t) (row t) (iblk_src_apply V c t))

/-- The accumulator after point `n` is the sum of the totals of the points up to `n`. -/
theorem acc_apply (c : Dev nD) (n : ℕ) (h : n < cfg0.N) :
    (acc V c n h : S1x1.Idx → EReal) (ix2 0 0) = ∑ b ∈ PartialSum.upto cfg0.N n, tot V c b :=
  RunningSum.eq_sum_upto (fun n h => (acc V c n h : S1x1.Idx → EReal) (ix2 0 0)) (tot V c)
    (fun h => by
      rw [acc_zero V c h, ChamBody.pay0_apply, ChamBody.zero0_apply, zero_add]
      rfl)
    (fun n h => by
      rw [acc_succ V c n h, ChamBody.pay0_apply]
      rfl) n h

/-- At the ideal values, whatever the buffers hold when the kernel is entered (`V`): its 1 x 1 result array ends at the
    Chamfer sum from the first cloud to the second, as entered. -/
theorem total (c : Dev nD) :
    ((dat0 V c).arrAt 2 cfg0.N : S1x1.Idx → EReal) (ix2 0 0) = chamSum (V c main_arg0) (V c main_arg1) := by
  rw [final V c]
  show (acc V c 127 lt127 : S1x1.Idx → EReal) (ix2 0 0) = _
  rw [acc_apply V c 127 lt127, PartialSum.sum_upto_last 127 (le_of_eq N_0)]
  simp only [tot_eq]
  unfold chamSum
  rw [Finset.sum_comm]
  refine Finset.sum_congr rfl fun n _ => ?_
  rw [BlockSum.sum_fin_blocks (show 4096 = 128 * 32 from rfl) (fun r => nearest (V c main_arg0) (V c main_arg1) n r)]
  rfl

end IdealValues

end Cert.KernelIdeal.Region0

end
-- ==== Proof.Region1.lean ====
/-
  The second distance kernel, read as a value.

  The kernel walks the second cloud in 128 row blocks of 32 points; at every grid point it adds, to a 1 x 1 accumulator
  that stays in its staging buffer, the block's total: over the block's points, the squared distance to the nearest
  point of the whole first cloud. The first point resets the accumulator to zero before it adds. The accumulator is
  written back once, after the last point, so the result array ends at the sum of the 128 totals, which is the sum over
  all 4096 points of every batch: one direction of the Chamfer sum.
-/
import proofs.«115082_j11184094838809_1_alg».proof.Proof.Gen.KernelIdeal.Frame
import proofs.«115082_j11184094838809_1_alg».proof.Proof.ChamBody
import proofs.«115082_j11184094838809_1_alg».proof.Proof.LibPartialSum
import proofs.«115082_j11184094838809_1_alg».proof.Proof.LibRunningSum
import proofs.«115082_j11184094838809_1_alg».proof.Proof.LibBlockSum
import Idealize.ShloMosaic.Lib.Pipeline.Value
import Idealize.ShloMosaic.Lib.Tactic

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

section AnyValues

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the accumulator `xo` becomes the body's value of the two blocks and `xo`. -/
theorem out_B (c : Dev nD) (i : grid1.Coords) (a1 : Memref sig .tc .vmem S8x32x3 .f32) (h1 : a1.IsWhole)
    (a2 : Memref sig .tc .vmem S8x4096x3 .f32) (h2 : a2.IsWhole) (a3 : Memref sig .tc .vmem S1x1 .f32) (h3 : a3.IsWhole)
    (hc : ¬cond1_0 i) (x0 : Vec F S8x32x3 .f32) (x1 : Vec F S8x4096x3 .f32) (xo : Vec F S1x1 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz2]
  simp only [View.readAt_eq_ld, h1.read_unread, h2.read_unread, h3.read_unread, View.ld_unit_zero (S := S8x32x3) hz3,
    View.ld_unit_zero (S := S8x4096x3) hz3, View.ld_unit_zero (S := S1x1) hz2]

/-- The first point: the accumulator is reset to zero, then the same. -/
theorem out_A (c : Dev nD) (i : grid1.Coords) (a1 : Memref sig .tc .vmem S8x32x3 .f32) (h1 : a1.IsWhole)
    (a2 : Memref sig .tc .vmem S8x4096x3 .f32) (h2 : a2.IsWhole) (a3 : Memref sig .tc .vmem S1x1 .f32) (h3 : a3.IsWhole)
    (hc : cond1_0 i) (x0 : Vec F S8x32x3 .f32) (x1 : Vec F S8x4096x3 .f32) :
    out1_A_2 c i a1 h1 a2 h2 a3 h3 hc x0 x1 = k1_pay2 x0 x1 k1_pay1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz2, View.readCov_unit_zero (S := S1x1) _ hz2]
  simp only [View.readAt_eq_ld, h1.read_unread, h2.read_unread, View.ld_unit_zero (S := S8x32x3) hz3,
    View.ld_unit_zero (S := S8x4096x3) hz3]

/-- The two blocks the body reads at point `t`, at their literal types. -/
abbrev blkSrc (c : Dev nD) (t : Fin cfg1.N) : Vec F S8x32x3 .f32 := iblk1 V c 0 t
abbrev blkOther (c : Dev nD) (t : Fin cfg1.N) : Vec F S8x4096x3 .f32 := iblk1 V c 1 t

/-- What the accumulator holds after point `n`: the body's value of the point's two blocks and of what it held before,
    from the zero the first point resets it to. -/
def acc (c : Dev nD) : (n : ℕ) → n < cfg1.N → Vec F S1x1 .f32
  | 0, h => k1_pay2 (blkSrc V c ⟨0, h⟩) (blkOther V c ⟨0, h⟩) k1_pay1
  | n + 1, h => k1_pay2 (blkSrc V c ⟨n + 1, h⟩) (blkOther V c ⟨n + 1, h⟩) (acc c n (Nat.lt_of_succ_lt h))

theorem acc_zero (c : Dev nD) (h : 0 < cfg1.N) :
    acc V c 0 h = k1_pay2 (blkSrc V c ⟨0, h⟩) (blkOther V c ⟨0, h⟩) k1_pay1 := rfl
theorem acc_succ (c : Dev nD) (n : ℕ) (h : n + 1 < cfg1.N) :
    acc V c (n + 1) h = k1_pay2 (blkSrc V c ⟨n + 1, h⟩) (blkOther V c ⟨n + 1, h⟩) (acc V c n (Nat.lt_of_succ_lt h)) := rfl

/-- The staging buffer of the output after point `n` holds the running accumulator: by induction on the point. -/
theorem outsAt_eq (c : Dev nD) : ∀ (n : ℕ) (h : n < cfg1.N), outsAt1 V c n h = acc V c n h
  | 0, h => (outsAt1_A V c ⟨0, h⟩ rfl).trans (out_A ..)
  | n + 1, h => by
    have hN : cfg1.N = 128 := N_1
    have hB : ¬(⟨n + 1, h⟩ : Fin cfg1.N).val % 128 = 0 := by dsimp only; omega
    rw [outsAt1_B V c ⟨n + 1, h⟩ hB, out_B]
    rw [acc_succ V c n h, ← outsAt_eq c n]
    rfl

theorem lt127 : 127 < cfg1.N := by rw [show cfg1.N = 128 from N_1]; decide

/-- The last point. -/
abbrev tLast : Fin cfg1.N := ⟨127, lt127⟩

/-- The accumulator after the last point, as the contents of the 1 x 1 result array. -/
abbrev result (c : Dev nD) : Buf (Elt F) ((c : Thread nD τ).loc main_v2) := acc V c 127 lt127

/-- The one write-back, after the last point, writes it: the block is the whole 1 x 1 array. -/
theorem flushed_eq (c : Dev nD) (t : Fin cfg1.N) (hf : (cfg1.win 2).flush t = true) :
    (dat1 V c).flushed 2 t = ((cfg1.win 2).blk t).view.read (Elt F) (result V c) := by
  have hN : cfg1.N = 128 := N_1
  have h3 : t.val = 127 := by have := (flush1_2 t).mp hf; have := t.isLt; omega
  obtain rfl : t = tLast := Fin.ext h3
  show (cfg1.win 2).cut (grid1.coords tLast) ((dat1 V c).after 2 tLast) = _
  rw [after1_2, outsAt_eq]
  have hz' : (fun a => win1_2.index tLast a * main_v2.ty.shape.size a) = fun _ => 0 := funext fun a => by fin_cases a <;> decide
  exact (Memref.read_access_unit_zero (Elt F) main_v2 hz' (fun a => by rw [congrFun hz' a]; simp) (result V c)).symm

/-- So the result array ends at the accumulator after the last point. -/
theorem final (c : Dev nD) : (dat1 V c).arrAt 2 cfg1.N = result V c :=
  (dat1 V c).arrAt_eq_of_cover 2 (result V c) (flushed_eq V c) fun i =>
    ⟨tLast, (flush1_2 tLast).mpr rfl, by
      show i ∈ ((View.whole main_v2).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 1 from by decide +kernel]; omega⟩

/-! ## The blocks -/

/-- The first window's block index at point `t` is `(0, t, 0)`; the second window's is always `(0, 0, 0)`. -/
theorem idx_src : ∀ t : Fin cfg1.N, win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0)
theorem idx_other : ∀ t : Fin cfg1.N, win1_1.index t 0 = 0 ∧ win1_1.index t 1 = 0 ∧ win1_1.index t 2 = 0 :=
  (by decide +kernel : ∀ t : Fin grid1.N, win1_1.index t 0 = 0 ∧ win1_1.index t 1 = 0 ∧ win1_1.index t 2 = 0)

/-- Row `p` of the block of point `t` is row `32 t + p` of the cloud. -/
def row (t : Fin cfg1.N) (p : Fin 32) : Fin 4096 :=
  ⟨t.val * 32 + p.val, by have := t.isLt; have hN : cfg1.N = 128 := N_1; have := p.isLt; omega⟩

/-- The first window's block at point `t` holds the rows `32 t … 32 t + 31` of every batch of the second cloud. -/
theorem iblk_src_apply (c : Dev nD) (t : Fin cfg1.N) (n : Fin 8) (p : Fin 32) (d : Fin 3) :
    blkSrc V c t (ix3 n p d) = (V c main_arg1 : Vec F S8x4096x3 .f32) (ix3 n (row t p) d) := by
  obtain ⟨i0, i1, i2⟩ := idx_src t
  unfold blkSrc iblk1
  rw [View.read_apply]
  show V c main_arg1 _ = V c main_arg1 _
  congr 1
  funext a
  apply Fin.ext
  match a with
  | ⟨0, _⟩ => show win1_0.index t 0 * 8 + 1 * n.val = n.val; rw [i0]; omega
  | ⟨1, _⟩ => show win1_0.index t 1 * 32 + 1 * p.val = t.val * 32 + p.val; rw [i1]; omega
  | ⟨2, _⟩ => show win1_0.index t 2 * 3 + 1 * d.val = d.val; rw [i2]; omega

/-- The second window's block is, at every point, the whole first cloud. -/
theorem iblk_other_eq (c : Dev nD) (t : Fin cfg1.N) :
    blkOther V c t = (V c main_arg0 : Vec F S8x4096x3 .f32) := by
  obtain ⟨i0, i1, i2⟩ := idx_other t
  funext j
  unfold blkOther iblk1
  rw [View.read_apply]
  show V c main_arg0 _ = V c main_arg0 _
  congr 1
  funext a
  apply Fin.ext
  match a with
  | ⟨0, _⟩ => show win1_1.index t 0 * 8 + 1 * (j 0).val = (j 0).val; rw [i0]; omega
  | ⟨1, _⟩ => show win1_1.index t 1 * 4096 + 1 * (j 1).val = (j 1).val; rw [i1]; omega
  | ⟨2, _⟩ => show win1_1.index t 2 * 3 + 1 * (j 2).val = (j 2).val; rw [i2]; omega

end AnyValues

/-! ## At the ideal values: the sum over all points of the cloud -/

section IdealValues

open Cert.Chamfer Cert.Lib

variable (V : (c : Dev nD) → (b : Ref sig .tc) → Buf (Elt Ideal) ((c : Thread nD τ).loc b))

/-- A point's total over a block that holds rows `r p` of a cloud `X` is the sum of those rows' nearest distances. -/
theorem pointTotal_of_rows (X Y : Vec Ideal S8x4096x3 .f32) (x0 : Vec Ideal S8x32x3 .f32) (r : Fin 32 → Fin 4096)
    (h0 : ∀ n p d, x0 (ix3 n p d) = X (ix3 n (r p) d)) :
    ChamBody.pointTotal x0 Y = ∑ n : Fin 8, ∑ p : Fin 32, nearest X Y n (r p) := by
  unfold ChamBody.pointTotal Cert.Chamfer.nearest Cert.Chamfer.dist Cert.Chamfer.sq Cert.Chamfer.inner
  simp only [h0]

/-- What point `t` adds. -/
def tot (c : Dev nD) (t : Fin cfg1.N) : EReal := ChamBody.pointTotal (blkSrc V c t) (blkOther V c t)

theorem tot_eq (c : Dev nD) (t : Fin cfg1.N) :
    tot V c t = ∑ n : Fin 8, ∑ p : Fin 32, nearest (V c main_arg1) (V c main_arg0) n (row t p) :=
  (congrArg (ChamBody.pointTotal (blkSrc V c t)) (iblk_other_eq V c t)).trans
    (pointTotal_of_rows (V c main_arg1) (V c main_arg0) (blkSrc V c t) (row t) (iblk_src_apply V c t))

/-- The accumulator after point `n` is the sum of the totals of the points up to `n`. -/
theorem acc_apply (c : Dev nD) (n : ℕ) (h : n < cfg1.N) :
    (acc V c n h : S1x1.Idx → EReal) (ix2 0 0) = ∑ b ∈ PartialSum.upto cfg1.N n, tot V c b :=
  RunningSum.eq_sum_upto (fun n h => (acc V c n h : S1x1.Idx → EReal) (ix2 0 0)) (tot V c)
    (fun h => by
      rw [acc_zero V c h, ChamBody.pay1_apply, ChamBody.zero1_apply, zero_add]
      rfl)
    (fun n h => by
      rw [acc_succ V c n h, ChamBody.pay1_apply]
      rfl) n h

/-- At the ideal values, whatever the buffers hold when the kernel is entered (`V`): its 1 x 1 result array ends at the
    Chamfer sum from the second cloud to the first, as entered. -/
theorem total (c : Dev nD) :
    ((dat1 V c).arrAt 2 cfg1.N : S1x1.Idx → EReal) (ix2 0 0) = chamSum (V c main_arg1) (V c main_arg0) := by
  rw [final V c]
  show (acc V c 127 lt127 : S1x1.Idx → EReal) (ix2 0 0) = _
  rw [acc_apply V c 127 lt127, PartialSum.sum_upto_last 127 (le_of_eq N_1)]
  simp only [tot_eq]
  unfold chamSum
  rw [Finset.sum_comm]
  refine Finset.sum_congr rfl fun n _ => ?_
  rw [BlockSum.sum_fin_blocks (show 4096 = 128 * 32 from rfl) (fun r => nearest (V c main_arg1) (V c main_arg0) n r)]
  rfl

end IdealValues

end Cert.KernelIdeal.Region1

end
-- ==== Proof.BppBody.lean ====
/-
  One grid point of the log-likelihood kernel, at the ideal values.

  The block is one batch's table of 256 rows by 1024 columns behind a leading axis of extent one. The kernel drops
  that axis, takes the logarithm of every entry, adds each row's 1024 logarithms, stands the 256 row sums in a column,
  adds the column, and adds the resulting single number to what the 1 by 1 accumulator held. Read at the accumulator's
  one entry this is the old value plus the double sum, over rows and columns, of the logarithms of the table
  ("tableTotal"): each layout step only renames an index, and each of the two reductions is a finite sum over the
  coordinate it removes. The reset value written at the first grid point is the zero word, the extended real 0.
-/
import proofs.«115082_j11184094838809_1_alg».proof.Proof.Gen.KernelIdeal.Skeleton
import proofs.«115082_j11184094838809_1_alg».proof.Proof.Spec
import proofs.«115082_j11184094838809_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BppBody

open Idealize.ShloMosaic Idealize.ShloMosaic.ValueIdx Idealize.ShloMosaic.ValueLayout Cert.KernelIdeal Cert.KernelIdeal.Gen

/-- The sum of the logarithms of one batch's 256 by 1024 table. -/
def tableTotal (x : Vec Ideal S1x256x1024 .f32) : EReal :=
  ∑ r : Fin 256, ∑ c : Fin 1024, Ideal.log (x (ix3 (0 : Fin 1) r c))

/-! ## The steps, each read at one entry -/

/-- Dropping the leading unit axis: entry (r, c) of the table is entry (0, r, c) of the block. -/
theorem table_apply (x : Vec Ideal S1x256x1024 .f32) (h : S1x256x1024.ShapeCasts S256x1024) (r : Fin 256) (c : Fin 1024) :
    shapeCast S256x1024 x h (ix2 r c) = x (ix3 (0 : Fin 1) r c) :=
  shapeCast_1ab_ab_apply x h r c

/-- The logarithm is taken entry by entry, and at the ideal values it is the extended reals' logarithm. -/
theorem log_apply {s : Shape} (v : FVec Ideal s .f32) (i : s.Idx) : log v i = Ideal.log (v i) := rfl

/-- Adding along the columns: row r of the result is the sum of that row's 1024 entries. -/
theorem rowSum_apply (v : FVec Ideal S256x1024 .f32) (h : S256x1024.Reduces [1] S256) (hφ : FKind.Formats .f32)
    (hacc : (0x00000000#32 : BitVec 32) = FKind.add.neutral .f32 hφ) (r : Fin 256) :
    multiReduction .add [1] S256 v 0x00000000#32 h hφ hacc (ix1 r) = ∑ c : Fin 1024, v (ix2 r c) := by
  refine (Ideal.multiReduction_add_single v _ h hφ hacc (ix1 r)).trans ?_
  refine Finset.sum_congr rfl fun c _ => congrArg v ?_
  funext a
  match a with
  | ⟨0, _⟩ => exact Fin.ext rfl
  | ⟨1, _⟩ => exact Fin.ext rfl

/-- Adding down a column of 256 entries: the one entry of the result is their sum. -/
theorem colSum_apply (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 256, v (ix2 r (0 : Fin 1)) := by
  refine (Ideal.multiReduction_add_single v _ h hφ hacc (ix1 u)).trans ?_
  refine Finset.sum_congr rfl fun r _ => congrArg v ?_
  funext a
  match a with
  | ⟨0, _⟩ => exact Fin.ext rfl
  | ⟨1, _⟩ => exact Fin.ext (by have := u.isLt; show u.val = 0; omega)

/-! ## The stored values -/

/-- The value the kernel stores: what the accumulator held plus the table's total. -/
theorem pay2_apply (x : Vec Ideal S1x256x1024 .f32) (xo : Vec Ideal S1x1 .f32) (j : S1x1.Idx) :
    k2_pay2 (F := Ideal) x xo j = xo j + tableTotal x := by
  obtain ⟨p, q, rfl⟩ : ∃ p q, j = ix2 p q := ⟨j 0, j 1, eq_ix2 j⟩
  unfold k2_pay2 tableTotal
  rw [addf_apply, shapeCast_self]
  refine congrArg (fun t => xo (ix2 p q) + t) ?_
  refine (shapeCast_a_a1_apply _ _ p q).trans ?_
  refine (colSum_apply _ _ _ _ p).trans ?_
  refine Finset.sum_congr rfl fun r _ => ?_
  refine (shapeCast_a_a1_apply _ _ r (0 : Fin 1)).trans ?_
  refine (rowSum_apply _ _ _ _ r).trans ?_
  refine Finset.sum_congr rfl fun c _ => ?_
  rw [log_apply, table_apply]

/-- The reset stores zero. -/
theorem zero2_apply (j : S1x1.Idx) : k2_pay1 (F := Ideal) j = 0 := by
  unfold k2_pay1
  rw [broadcast_apply]
  exact Ideal.ofBits_zero_f32

end Cert.KernelIdeal.BppBody

end
-- ==== Proof.Region2.lean ====
/-
  The log-likelihood kernel, read as a value.

  The kernel walks the likelihood array batch by batch: at each of its eight grid points it adds, to a 1 x 1
  accumulator that stays in its staging buffer, the sum of the logarithms of that batch's 256 by 1024 table. The first
  point resets the accumulator to zero before it adds. The accumulator is written back once, after the last point, so
  the result array ends at zero plus the eight table totals: the sum of the logarithms of every entry.
-/
import proofs.«115082_j11184094838809_1_alg».proof.Proof.Gen.KernelIdeal.Frame
import proofs.«115082_j11184094838809_1_alg».proof.Proof.BppBody
import proofs.«115082_j11184094838809_1_alg».proof.Proof.LibPartialSum
import Idealize.ShloMosaic.Lib.Pipeline.Value
import Idealize.ShloMosaic.Lib.Tactic

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

section AnyValues

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A point after the first: the accumulator `xo` becomes the body's value of the batch's table `x` and of `xo`. -/
theorem out_B (c : Dev nD) (i : grid2.Coords) (a1 : Memref sig .tc .vmem S1x256x1024 .f32) (h1 : a1.IsWhole)
    (a2 : Memref sig .tc .vmem S1x1 .f32) (h2 : a2.IsWhole) (hc : ¬cond2_0 i)
    (x : Vec F S1x256x1024 .f32) (xo : Vec F S1x1 .f32) :
    out2_B_1 c i a1 h1 a2 h2 hc x xo = k2_pay2 x xo := by
  unfold out2_B_1
  rw [View.read_writes_eq_canon _ _ _ (cover2_B_1 c i a1 h1 a2 h2 hc x xo)]
  unfold kernelRun2_B
  dsimp only
  sl_unfold_words
  rw [View.canon_unit_zero hz2]
  simp only [View.readAt_eq_ld, h1.read_unread, h2.read_unread, View.ld_unit_zero (S := S1x256x1024) hz3,
    View.ld_unit_zero (S := S1x1) hz2]

/-- The first point: the accumulator is reset, the reset is read back, and the body's value of the table and of the
    reset value is stored over it. -/
theorem out_A (c : Dev nD) (i : grid2.Coords) (a1 : Memref sig .tc .vmem S1x256x1024 .f32) (h1 : a1.IsWhole)
    (a2 : Memref sig .tc .vmem S1x1 .f32) (h2 : a2.IsWhole) (hc : cond2_0 i)
    (x : Vec F S1x256x1024 .f32) :
    out2_A_1 c i a1 h1 a2 h2 hc x = k2_pay2 x k2_pay1 := by
  unfold out2_A_1
  rw [View.read_writes_eq_canon _ _ _ (cover2_A_1 c i a1 h1 a2 h2 hc x)]
  unfold kernelRun2_A
  dsimp only
  sl_unfold_words
  rw [View.canon_cons_unit_zero (S := S1x1) hz2, View.readCov_unit_zero (S := S1x1) _ hz2]
  simp only [View.readAt_eq_ld, h1.read_unread, View.ld_unit_zero (S := S1x256x1024) hz3]

/-- What the accumulator holds after point `n`: the body's value of the point's table and of what the accumulator held
    before, starting from the reset value at the first point. -/
def acc (c : Dev nD) : (n : ℕ) → n < cfg2.N → Vec F S1x1 .f32
  | 0, h => k2_pay2 (iblk2 V c 0 ⟨0, h⟩) k2_pay1
  | n + 1, h => k2_pay2 (iblk2 V c 0 ⟨n + 1, h⟩) (acc c n (Nat.lt_of_succ_lt h))

/-- After point `n` the output's staging buffer holds the running accumulator: by induction on the point. -/
theorem outsAt_eq (c : Dev nD) : ∀ (n : ℕ) (h : n < cfg2.N), outsAt2 V c n h = acc V c n h
  | 0, h => (outsAt2_A V c ⟨0, h⟩ rfl).trans (out_A ..)
  | n + 1, h => by
    have hN : cfg2.N = 8 := N_2
    have hB : ¬(⟨n + 1, h⟩ : Fin cfg2.N).val % 8 = 0 := by dsimp only; omega
    rw [outsAt2_B V c ⟨n + 1, h⟩ hB, out_B]
    show k2_pay2 _ (outsAt2 V c n _) = k2_pay2 _ (acc V c n _)
    rw [outsAt_eq c n]

/-- The last of the eight points. -/
def tLast : Fin cfg2.N := ⟨7, by rw [show cfg2.N = 8 from N_2]; decide⟩

/-- The accumulator after the last point, as the contents of the 1 x 1 result array. -/
abbrev result (c : Dev nD) : Buf (Elt F) ((c : Thread nD τ).loc main_v7) := acc V c 7 (tLast).isLt

/-- The one write-back, after the last point, writes it: the block is the whole 1 x 1 array. -/
theorem flushed_eq (c : Dev nD) (t : Fin cfg2.N) (hf : (cfg2.win 1).flush t = true) :
    (dat2 V c).flushed 1 t = ((cfg2.win 1).blk t).view.read (Elt F) (result V c) := by
  have hN : cfg2.N = 8 := N_2
  have h7 : t.val = 7 := by have := (flush2_1 t).mp hf; have := t.isLt; omega
  obtain rfl : t = tLast := Fin.ext h7
  show (cfg2.win 1).cut (grid2.coords tLast) ((dat2 V c).after 1 tLast) = _
  rw [after2_1, outsAt_eq]
  have hz' : (fun a => win2_1.index tLast a * main_v7.ty.shape.size a) = fun _ => 0 := funext fun a => by fin_cases a <;> decide
  exact (Memref.read_access_unit_zero (Elt F) main_v7 hz' (fun a => by rw [congrFun hz' a]; simp) (result V c)).symm

/-- So the result array ends at the accumulator after the last point: that point's block covers the array. -/
theorem final (c : Dev nD) : (dat2 V c).arrAt 1 cfg2.N = result V c :=
  (dat2 V c).arrAt_eq_of_cover 1 (result V c) (flushed_eq V c) fun i =>
    ⟨tLast, (flush2_1 tLast).mpr rfl, by
      show i ∈ ((View.whole main_v7).slice (win2_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_1.index tLast 0 * win2_1.size 0 ≤ (i 0 : Nat) ∧ (i 0 : Nat) < win2_1.index tLast 0 * win2_1.size 0 + win2_1.xsize (grid2.coords tLast) 0
                  rw [show win2_1.index tLast 0 * win2_1.size 0 = 0 from by decide +kernel, show win2_1.xsize (grid2.coords tLast) 0 = 1 from by decide +kernel]; omega
      | ⟨1, _⟩ => show win2_1.index tLast 1 * win2_1.size 1 ≤ (i 1 : Nat) ∧ (i 1 : Nat) < win2_1.index tLast 1 * win2_1.size 1 + win2_1.xsize (grid2.coords tLast) 1
                  rw [show win2_1.index tLast 1 * win2_1.size 1 = 0 from by decide +kernel, show win2_1.xsize (grid2.coords tLast) 1 = 1 from by decide +kernel]; omega⟩

/-- The table the window shows at point `t` is batch `t` of the likelihood array, entry by entry. -/
theorem iblk_apply (c : Dev nD) (t : Fin cfg2.N) (r : Fin 256) (k : Fin 1024) :
    (iblk2 V c 0 t : Vec F S1x256x1024 .f32) (ix3 (0 : Fin 1) r k)
      = (V c main_arg4 : Vec F S8x256x1024 .f32) (ix3 (⟨t.val, lt_of_lt_of_eq t.isLt N_2⟩ : Fin 8) r k) := by
  have hi : ∀ t : Fin cfg2.N, win2_0.index t 0 = t.val ∧ win2_0.index t 1 = 0 ∧ win2_0.index t 2 = 0 :=
    (by decide +kernel : ∀ t : Fin grid2.N, win2_0.index t 0 = t.val ∧ win2_0.index t 1 = 0 ∧ win2_0.index t 2 = 0)
  unfold iblk2
  rw [View.read_apply]
  show V c main_arg4 _ = V c main_arg4 _
  congr 1
  funext a
  apply Fin.ext
  match a with
  | ⟨0, _⟩ => show win2_0.index t 0 * 1 + 1 * 0 = t.val; rw [(hi t).1]; omega
  | ⟨1, _⟩ => show win2_0.index t 1 * 256 + 1 * r.val = r.val; rw [(hi t).2.1]; omega
  | ⟨2, _⟩ => show win2_0.index t 2 * 1024 + 1 * k.val = k.val; rw [(hi t).2.2]; omega

end AnyValues

/-! ## At the ideal values -/

section IdealValues

open Cert.Lib.PartialSum Cert.KernelIdeal.BppBody

variable (V : (c : Dev nD) → (b : Ref sig .tc) → Buf (Elt Ideal) ((c : Thread nD τ).loc b))

/-- Batch `b`'s table as the window shows it, named at its literal type. -/
abbrev table (c : Dev nD) (b : Fin 8) : Vec Ideal S1x256x1024 .f32 := iblk2 V c 0 (Fin.cast N_2.symm b)

/-- After point `n` the accumulator's one entry is the sum of the table totals of the batches up to `n`: the reset
    contributes zero, and each point adds its own table's total. -/
theorem acc_apply (c : Dev nD) : ∀ (n : ℕ) (h : n < cfg2.N),
    (acc V c n h : S1x1.Idx → EReal) (ix2 0 0) = ∑ b ∈ upto 8 n, tableTotal (table V c b)
  | 0, h => by
    rw [acc, pay2_apply, zero2_apply, zero_add, sum_upto_zero (by decide)]
    rfl
  | n + 1, h => by
    have hN : cfg2.N = 8 := N_2
    rw [acc, pay2_apply, acc_apply c n, sum_upto_succ n (by omega)]
    rfl

end IdealValues

/-- At the ideal values, whatever the buffers hold when the kernel is entered (`V`): its 1 x 1 result array ends at the sum
    of the logarithms of all entries of the likelihood array as entered. -/
theorem total (V : (c : Dev nD) → (b : Ref sig .tc) → Buf (Elt Ideal) ((c : Thread nD τ).loc b)) (c : Dev nD) :
    ((dat2 V c).arrAt 1 cfg2.N : S1x1.Idx → EReal) (ix2 0 0) = Cert.Chamfer.logSum (V c main_arg4) := by
  rw [final V c]
  refine (acc_apply V c 7 tLast.isLt).trans ?_
  rw [Cert.Lib.PartialSum.sum_upto_last 7 (by decide)]
  unfold Cert.Chamfer.logSum
  refine Finset.sum_congr rfl fun b _ => ?_
  unfold Cert.KernelIdeal.BppBody.tableTotal
  refine Finset.sum_congr rfl fun r _ => Finset.sum_congr rfl fun k _ => ?_
  exact congrArg Ideal.log (iblk_apply V c (Fin.cast N_2.symm b) r k)

end Cert.KernelIdeal.Region2

end
-- ==== Proof.KernelValue.lean ====
/-
  The kernel program's results as functions of what it was launched with, at the ideal values.

  The reconstruction loss the program returns is the first distance kernel's total divided by 32768 plus the second's;
  the first kernel's total is the Chamfer sum from the first cloud to the second, the second kernel's the sum from the
  second to the first, both of the clouds as LAUNCHED: neither kernel nor any host operation between them writes an
  argument. The rate loss is the third kernel's total, the sum of the logarithms of all likelihoods as launched,
  divided by the constant.
-/
import proofs.«115082_j11184094838809_1_alg».proof.Proof.KernelReads
import proofs.«115082_j11184094838809_1_alg».proof.Proof.Region0
import proofs.«115082_j11184094838809_1_alg».proof.Proof.Region1
import proofs.«115082_j11184094838809_1_alg».proof.Proof.Region2

noncomputable section

namespace Cert.KernelIdeal.Value

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ) (ρ : Dev nD → PrngReg)

/-- The first kernel's result array after it has run: the Chamfer sum from the first cloud to the second. -/
theorem first_total (c : Dev nD) :
    (W1 m ρ c (Proc.devRef .tc main_v0) : S1x1.Idx → EReal) (ix2 0 0)
      = chamSum (m ((c : Thread nD τ).loc main_arg0)) (m ((c : Thread nD τ).loc main_arg1)) :=
  (congrFun (W1_arr m ρ c 2) (ix2 0 0)).trans (Region0.total (V0 m ρ) c)

/-- The second kernel's: the sum from the second cloud to the first. -/
theorem second_total (c : Dev nD) :
    (W3 m ρ c (Proc.devRef .tc main_v2) : S1x1.Idx → EReal) (ix2 0 0)
      = chamSum (m ((c : Thread nD τ).loc main_arg1)) (m ((c : Thread nD τ).loc main_arg0)) := by
  refine (congrFun (W3_arr m ρ c 2) (ix2 0 0)).trans ((Region1.total (V2 m ρ) c).trans ?_)
  rw [Reads.V2_arg0, Reads.V2_arg1]

/-- The third kernel's: the sum of all logarithms. -/
theorem third_total (c : Dev nD) :
    (W5 m ρ c (Proc.devRef .tc main_v7) : S1x1.Idx → EReal) (ix2 0 0) = logSum (m ((c : Thread nD τ).loc main_arg4)) := by
  refine (congrFun (W5_arr m ρ c 1) (ix2 0 0)).trans ((Region2.total (V4 m ρ) c).trans ?_)
  rw [Reads.V4_arg4]

/-- The reconstruction loss the program returns. -/
theorem rec_value (c : Dev nD) :
    (W9 m ρ c (Proc.devRef .tc main_v6) : S_.Idx → EReal) ix0
      = Ideal.div (chamSum (m ((c : Thread nD τ).loc main_arg0)) (m ((c : Thread nD τ).loc main_arg1))) (Ideal.ofBits .f32 0x47000000#32)
        + Ideal.div (chamSum (m ((c : Thread nD τ).loc main_arg1)) (m ((c : Thread nD τ).loc main_arg0))) (Ideal.ofBits .f32 0x47000000#32) := by
  rw [Reads.W9_v6_apply, first_total, second_total]

/-- The rate loss the program returns. -/
theorem bpp_value (c : Dev nD) :
    (W9 m ρ c (Proc.devRef .tc main_v9) : S_.Idx → EReal) ix0
      = Ideal.div (logSum (m ((c : Thread nD τ).loc main_arg4))) (Ideal.ofBits .f32 0xC6B17218#32) := by
  rw [Reads.W9_v9_apply, third_total]

end Cert.KernelIdeal.Value

end
-- ==== Proof.RefValue.lean ====
/-
  The reference program's results at the ideal values, read down to the specification.

  The reconstruction term: for each batch and each pair of points the host forms |x_p|^2 + |y_q|^2 - 2 <x_p, y_q>
  from two broadcast squared norms and a batched product, which is the expanded squared distance of the
  specification; its minimum over the second cloud's points is the squared distance to the nearest point, its
  minimum over the first cloud's points at a fixed point of the second is the same with the clouds exchanged. Each
  direction is summed over the points, divided by 4096, summed over the batches and divided by 8, and the two are added.
  The rate term is the sum of the logarithms of every likelihood divided by a constant; a sum over a rank-3 index set
  is the triple sum over its coordinates. The total is the three terms, each times one, added.
-/
import proofs.«115082_j11184094838809_1_alg».proof.Proof.Gen.ReferenceIdeal.Read
import proofs.«115082_j11184094838809_1_alg».proof.Proof.Spec
import proofs.«115082_j11184094838809_1_alg».proof.Proof.LibMinAxis
import Idealize.ShloMosaic.Lib.ValueIdx
import Idealize.ShloMosaic.PureOps.Ideal.Laws
import Idealize.ShloMosaic.Lib.ValueIdxRank1
import Mathlib.Algebra.BigOperators.Group.Finset.Defs
import Mathlib.Data.Fintype.BigOperators

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen Cert.Chamfer

/-- The reconstruction loss as the host computes it from the two clouds. -/
def recTerm {F : FTy → Type} [FloatOps F] (a0 a1 : Vec F S8x4096x3 .f32) : Vec F S_ .f32 :=
  addf (Host.divf (Host.reduceAdd (Host.divf (Host.reduceAdd (Host.reduce FloatOps.minimumf (subf (addf (broadcastInDim S8x4096x4096 ![0, 1, 2] bcast_S8x4096x1_S8x4096x4096_0_1_2 (broadcastInDim S8x4096x1 ![0, 1] bcast_S8x4096_S8x4096x1_0_1 (Host.reduceAdd (mulf a0 a0) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf a1 a1) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none a0 a1))) (constant S_ .f32 0x7F800000#32) reducesTo_S8x4096x4096_S8x4096_d2 h_S_) (constant S_ .f32 0x00000000#32) reducesTo_S8x4096_S8_d1 h_S_) (broadcastInDim S8 ![] bcast_S_S8 (constant S_ .f32 0x45800000#32))) (constant S_ .f32 0x00000000#32) reducesTo_S8_S_d0 h_S_) (constant S_ .f32 0x41000000#32)) (Host.divf (Host.reduceAdd (Host.divf (Host.reduceAdd (Host.reduce FloatOps.minimumf (subf (addf (broadcastInDim S8x4096x4096 ![0, 1, 2] bcast_S8x4096x1_S8x4096x4096_0_1_2 (broadcastInDim S8x4096x1 ![0, 1] bcast_S8x4096_S8x4096x1_0_1 (Host.reduceAdd (mulf a0 a0) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf a1 a1) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none a0 a1))) (constant S_ .f32 0x7F800000#32) reducesTo_S8x4096x4096_S8x4096_d1 h_S_) (constant S_ .f32 0x00000000#32) reducesTo_S8x4096_S8_d1 h_S_) (broadcastInDim S8 ![] bcast_S_S8 (constant S_ .f32 0x45800000#32))) (constant S_ .f32 0x00000000#32) reducesTo_S8_S_d0 h_S_) (constant S_ .f32 0x41000000#32))

/-- The classification loss as the host computes it from the logits and the labels. -/
def clsTerm {F : FTy → Type} [FloatOps F] (t : Vec F S8x40 .f32) (lab : Vec F S8x1 .i32) : Vec F S_ .f32 :=
  Host.negf (Host.divf (Host.reduceAdd (select (Host.reduce IntOp.andi (andi (cmpi .sge (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1) (broadcastInDim S8x1x1 ![] bcast_S_S8x1x1 (constantI S_ 32 0#32))) (cmpi .sle (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1) (broadcastInDim S8x1x1 ![0, 1, 2] bcast_S1x1x1_S8x1x1_0_1_2 (broadcastInDim S1x1x1 ![2] bcast_S1_S1x1x1_2 (constantI S1 32 39#32))))) (constantI S_ 1 1#1) reducesTo_S8x1x1_S8x1_d2 h_S_) (Host.gather gather_S8x40_S8x1x1_S8x1_n_1_0_0_1_2_11 (subf (subf t (broadcastInDim S8x40 ![0, 1] bcast_S8x1_S8x40_0_1 (broadcastInDim S8x1 ![0] bcast_S8_S8x1_0 (maximumf (broadcastInDim S8 ![] bcast_S_S8 (constant S_ .f32 0xFF800000#32)) (Host.reduce FloatOps.maximumf t (constant S_ .f32 0xFF800000#32) reducesTo_S8x40_S8_d1 h_S_))))) (broadcastInDim S8x40 ![0, 1] bcast_S8x1_S8x40_0_1 (Host.log (broadcastInDim S8x1 ![0] bcast_S8_S8x1_0 (Host.reduceAdd (Host.exp (subf t (broadcastInDim S8x40 ![0, 1] bcast_S8x1_S8x40_0_1 (broadcastInDim S8x1 ![0] bcast_S8_S8x1_0 (maximumf (broadcastInDim S8 ![] bcast_S_S8 (constant S_ .f32 0xFF800000#32)) (Host.reduce FloatOps.maximumf t (constant S_ .f32 0xFF800000#32) reducesTo_S8x40_S8_d1 h_S_)))))) (constant S_ .f32 0x00000000#32) reducesTo_S8x40_S8_d1 h_S_))))) (shapeCast _ (select (cmpi .slt lab (broadcastInDim S8x1 ![] bcast_S_S8x1 (constantI S_ 32 0#32))) (addi lab (broadcastInDim S8x1 ![] bcast_S_S8x1 (constantI S_ 32 40#32))) lab) shapeCasts_S8x1_S8x1x1)) (broadcastInDim S8x1 ![] bcast_S_S8x1 (constant S_ .f32 0x7FC00000#32))) (constant S_ .f32 0x00000000#32) reducesTo_S8x1_S_d0_1 h_S_) (constant S_ .f32 0x41000000#32))

/-- The rate loss as the host computes it from the likelihoods. -/
def bppTerm {F : FTy → Type} [FloatOps F] (l : Vec F S8x256x1024 .f32) : Vec F S_ .f32 :=
  Host.divf (Host.reduceAdd (Host.log l) (constant S_ .f32 0x00000000#32) reducesTo_S8x256x1024_S_d0_1_2 h_S_) (constant S_ .f32 0xC6B17218#32)

section Reading

open Cert.ReferenceIdeal.Read

/-! ## A sum over a rank-3 index set is the triple sum over its coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The stages of the reconstruction term, each read at explicit coordinates -/

section Stages

variable (a0 a1 : (⟨S8x4096x3, .f32⟩ : BufTy).Contents (Elt Ideal))

/-- The squared norms of the first cloud's points. -/
theorem v4_at (n : Fin 8) (p : Fin 4096) : val_main_v4 (F := Ideal) a0 (ix2 n p) = sq a0 n p := by
  refine (val_main_v4_apply a0 (ix2 n p)).trans ?_
  rw [val_main_cst_1_apply, Ideal.ofBits_def, Ideal.ofBits_zero_f32, zero_add]
  unfold Cert.Chamfer.sq
  refine Finset.sum_congr rfl fun d _ => ?_
  have e : idx_main_v4 (ix2 n p) d = ix3 n p d :=
    funext fun a => Fin.ext (by match a with | ⟨0, _⟩ => rfl | ⟨1, _⟩ => rfl | ⟨2, _⟩ => rfl)
  rw [val_main_v3_apply, e, Ideal.mulf_def]

/-- The squared norms of the second cloud's points. -/
theorem v6_at (n : Fin 8) (q : Fin 4096) : val_main_v6 (F := Ideal) a1 (ix2 n q) = sq a1 n q := by
  refine (val_main_v6_apply a1 (ix2 n q)).trans ?_
  rw [val_main_cst_2_apply, Ideal.ofBits_def, Ideal.ofBits_zero_f32, zero_add]
  unfold Cert.Chamfer.sq
  refine Finset.sum_congr rfl fun d _ => ?_
  have e : idx_main_v6 (ix2 n q) d = ix3 n q d :=
    funext fun a => Fin.ext (by match a with | ⟨0, _⟩ => rfl | ⟨1, _⟩ => rfl | ⟨2, _⟩ => rfl)
  rw [val_main_v5_apply, e, Ideal.mulf_def]

/-- The first cloud's squared norms spread along the second cloud's points. -/
theorem v10_at (n : Fin 8) (p q : Fin 4096) : val_main_v10 (F := Ideal) a0 (ix3 n p q) = sq a0 n p := by
  have e : idx_main_v8 (idx_main_v10 (ix3 n p q)) = ix2 n p :=
    funext fun a => Fin.ext (by match a with | ⟨0, _⟩ => rfl | ⟨1, _⟩ => rfl)
  rw [val_main_v10_apply, val_main_v8_apply, e, v4_at]

/-- The second cloud's squared norms spread along the first cloud's points. -/
theorem v11_at (n : Fin 8) (p q : Fin 4096) : val_main_v11 (F := Ideal) a1 (ix3 n p q) = sq a1 n q := by
  have e : idx_main_v9 (idx_main_v11 (ix3 n p q)) = ix2 n q :=
    funext fun a => Fin.ext (by match a with | ⟨0, _⟩ => rfl | ⟨1, _⟩ => rfl)
  rw [val_main_v11_apply, val_main_v9_apply, e, v6_at]

/-- The factor two, everywhere. -/
theorem v13_at (n : Fin 8) (p q : Fin 4096) : val_main_v13 (F := Ideal) (ix3 n p q) = two := by
  rw [val_main_v13_apply, val_main_cst_3_apply, Ideal.ofBits_def]

/-- The batched product is the inner product of the two points. -/
theorem v7_at (n : Fin 8) (p q : Fin 4096) : val_main_v7 (F := Ideal) a0 a1 (ix3 n p q) = inner a0 a1 n p q := by
  refine (val_main_v7_apply a0 a1 (ix3 n p q)).trans ?_
  unfold Cert.Chamfer.inner
  refine Finset.sum_congr rfl fun d _ => ?_
  have el : lidx_main_v7 (ix3 n p q) d = ix3 n p d :=
    funext fun a => Fin.ext (by match a with | ⟨0, _⟩ => rfl | ⟨1, _⟩ => rfl | ⟨2, _⟩ => rfl)
  have er : ridx_main_v7 (ix3 n p q) d = ix3 n q d :=
    funext fun a => Fin.ext (by match a with | ⟨0, _⟩ => rfl | ⟨1, _⟩ => rfl | ⟨2, _⟩ => rfl)
  rw [el, er]

/-- The table of expanded squared distances. -/
theorem v15_at (n : Fin 8) (p q : Fin 4096) : val_main_v15 (F := Ideal) a0 a1 (ix3 n p q) = dist a0 a1 n p q := by
  rw [val_main_v15_apply, val_main_v12_apply, val_main_v14_apply, v10_at, v11_at, v13_at, v7_at,
    Ideal.subf_def, Ideal.addf_def, Ideal.mulf_def]
  rfl

/-- Its minimum over the second cloud's points. -/
theorem v16_at (n : Fin 8) (p : Fin 4096) : val_main_v16 (F := Ideal) a0 a1 (ix2 n p) = nearest a0 a1 n p := by
  unfold val_main_v16
  refine (Cert.Lib.MinAxis.hostReduce_min_last (val_main_v15 (F := Ideal) a0 a1) (val_main_cst_4 (F := Ideal))
    reducesTo_S8x4096x4096_S8x4096_d2 (by decide) h_S_ n p).trans ?_
  unfold Cert.Chamfer.nearest
  rw [val_main_cst_4_apply, Ideal.ofBits_def]
  exact congrArg (fun f : Fin 4096 → EReal => (Finset.univ : Finset (Fin 4096)).fold min top f)
    (funext fun q => v15_at a0 a1 n p q)

/-- Its minimum over the first cloud's points. -/
theorem v20_at (n : Fin 8) (q : Fin 4096) : val_main_v20 (F := Ideal) a0 a1 (ix2 n q) = nearest a1 a0 n q := by
  unfold val_main_v20
  refine (Cert.Lib.MinAxis.hostReduce_min_middle (val_main_v15 (F := Ideal) a0 a1) (val_main_cst_7 (F := Ideal))
    reducesTo_S8x4096x4096_S8x4096_d1 (by decide) h_S_ n q).trans ?_
  rw [val_main_cst_7_apply, Ideal.ofBits_def]
  refine Eq.trans ?_ (nearest_swap a0 a1 n q)
  exact congrArg (fun f : Fin 4096 → EReal => (Finset.univ : Finset (Fin 4096)).fold min top f)
    (funext fun p => v15_at a0 a1 n p q)

end Stages

section Means

variable (a0 a1 : (⟨S8x4096x3, .f32⟩ : BufTy).Contents (Elt Ideal))

/-- Per batch, the sum over the first cloud's points of the squared distance to the nearest point of the second. -/
theorem v17_at (n : Fin 8) : val_main_v17 (F := Ideal) a0 a1 (ix1 n) = ∑ p : Fin 4096, nearest a0 a1 n p := by
  refine (val_main_v17_apply a0 a1 (ix1 n)).trans ?_
  rw [val_main_cst_5_apply, Ideal.ofBits_def, Ideal.ofBits_zero_f32, zero_add]
  refine Finset.sum_congr rfl fun p _ => ?_
  have e : idx_main_v17 (ix1 n) p = ix2 n p :=
    funext fun a => Fin.ext (by match a with | ⟨0, _⟩ => rfl | ⟨1, _⟩ => rfl)
  rw [e, v16_at]

/-- Per batch, the sum over the second cloud's points of the squared distance to the nearest point of the first. -/
theorem v21_at (n : Fin 8) : val_main_v21 (F := Ideal) a0 a1 (ix1 n) = ∑ q : Fin 4096, nearest a1 a0 n q := by
  refine (val_main_v21_apply a0 a1 (ix1 n)).trans ?_
  rw [val_main_cst_8_apply, Ideal.ofBits_def, Ideal.ofBits_zero_f32, zero_add]
  refine Finset.sum_congr rfl fun q _ => ?_
  have e : idx_main_v21 (ix1 n) q = ix2 n q :=
    funext fun a => Fin.ext (by match a with | ⟨0, _⟩ => rfl | ⟨1, _⟩ => rfl)
  rw [e, v20_at]

/-- The first direction's mean over the points, per batch. -/
theorem v19_at (n : Fin 8) : val_main_v19 (F := Ideal) a0 a1 (ix1 n)
    = Ideal.div (∑ p : Fin 4096, nearest a0 a1 n p) (Ideal.ofBits .f32 0x45800000#32) := by
  rw [val_main_v19_apply, val_main_v18_apply, val_main_cst_6_apply, v17_at, Ideal.hostDivf_def, Ideal.ofBits_def]

/-- The second direction's mean over the points, per batch. -/
theorem v23_at (n : Fin 8) : val_main_v23 (F := Ideal) a0 a1 (ix1 n)
    = Ideal.div (∑ q : Fin 4096, nearest a1 a0 n q) (Ideal.ofBits .f32 0x45800000#32) := by
  rw [val_main_v23_apply, val_main_v22_apply, val_main_cst_9_apply, v21_at, Ideal.hostDivf_def, Ideal.ofBits_def]

/-- The first direction: the mean over the batches of the means over the points. -/
theorem v25_at : val_main_v25 (F := Ideal) a0 a1 ix0
    = Ideal.div (∑ n : Fin 8, Ideal.div (∑ p : Fin 4096, nearest a0 a1 n p) (Ideal.ofBits .f32 0x45800000#32))
        (Ideal.ofBits .f32 0x41000000#32) := by
  rw [val_main_v25_apply, val_main_cst_11_apply, val_main_v24_apply, val_main_cst_10_apply, Ideal.hostDivf_def,
    Ideal.ofBits_def, Ideal.ofBits_def, Ideal.ofBits_zero_f32, zero_add, sum_idx1]
  exact congrArg (fun s => Ideal.div s (Ideal.ofBits .f32 0x41000000#32))
    (Finset.sum_congr rfl fun n _ => v19_at a0 a1 n)

/-- The second direction likewise. -/
theorem v27_at : val_main_v27 (F := Ideal) a0 a1 ix0
    = Ideal.div (∑ n : Fin 8, Ideal.div (∑ q : Fin 4096, nearest a1 a0 n q) (Ideal.ofBits .f32 0x45800000#32))
        (Ideal.ofBits .f32 0x41000000#32) := by
  rw [val_main_v27_apply, val_main_cst_13_apply, val_main_v26_apply, val_main_cst_12_apply, Ideal.hostDivf_def,
    Ideal.ofBits_def, Ideal.ofBits_def, Ideal.ofBits_zero_f32, zero_add, sum_idx1]
  exact congrArg (fun s => Ideal.div s (Ideal.ofBits .f32 0x41000000#32))
    (Finset.sum_congr rfl fun n _ => v23_at a0 a1 n)

/-- The two directions added. -/
theorem v28_at : val_main_v28 (F := Ideal) a0 a1 ix0
    = Ideal.div (∑ n : Fin 8, Ideal.div (∑ p : Fin 4096, nearest a0 a1 n p) (Ideal.ofBits .f32 0x45800000#32)) (Ideal.ofBits .f32 0x41000000#32)
      + Ideal.div (∑ n : Fin 8, Ideal.div (∑ q : Fin 4096, nearest a1 a0 n q) (Ideal.ofBits .f32 0x45800000#32)) (Ideal.ofBits .f32 0x41000000#32) := by
  rw [val_main_v28_apply, v25_at, v27_at, Ideal.addf_def]

end Means

/-! ## The rate term -/

/-- The rate term's stage read at its one index. -/
theorem v2_at (l : (⟨S8x256x1024, .f32⟩ : BufTy).Contents (Elt Ideal)) :
    val_main_v2 (F := Ideal) l ix0 = Ideal.div (logSum l) (Ideal.ofBits .f32 0xC6B17218#32) := by
  rw [val_main_v2_apply, val_main_cst_0_apply, val_main_v1_apply, val_main_cst_apply, Ideal.hostDivf_def,
    Ideal.ofBits_def, Ideal.ofBits_def, Ideal.ofBits_zero_f32, zero_add, sum_idx3]
  unfold Cert.Chamfer.logSum
  refine congrArg (fun s => Ideal.div s (Ideal.ofBits .f32 0xC6B17218#32)) ?_
  refine Finset.sum_congr rfl fun n _ => Finset.sum_congr rfl fun r _ => Finset.sum_congr rfl fun c _ => ?_
  rw [val_main_v0_apply, Ideal.hostUnary_log_def]

/-- Each term is the last of its stages. -/
theorem recTerm_eq (a0 a1 : Vec Ideal S8x4096x3 .f32) : recTerm (F := Ideal) a0 a1 = val_main_v28 (F := Ideal) a0 a1 :=
  val_main_v28_eq a0 a1

theorem clsTerm_eq (t : Vec Ideal S8x40 .f32) (lab : Vec Ideal S8x1 .i32) :
    clsTerm (F := Ideal) t lab = val_main_v33 (F := Ideal) t lab :=
  val_main_v33_eq t lab

theorem bppTerm_eq (l : Vec Ideal S8x256x1024 .f32) : bppTerm (F := Ideal) l = val_main_v2 (F := Ideal) l :=
  val_main_v2_eq l

end Reading

/-- Both directions: per batch the mean over the points of the squared distance to the nearest point of the other cloud,
    then the mean over the batches; the two directions added. -/
theorem recTerm_apply (a0 a1 : Vec Ideal S8x4096x3 .f32) :
    recTerm (F := Ideal) a0 a1 ix0
      = Ideal.div (∑ n : Fin 8, Ideal.div (∑ p : Fin 4096, nearest a0 a1 n p) (Ideal.ofBits .f32 0x45800000#32)) (Ideal.ofBits .f32 0x41000000#32)
        + Ideal.div (∑ n : Fin 8, Ideal.div (∑ q : Fin 4096, nearest a1 a0 n q) (Ideal.ofBits .f32 0x45800000#32)) (Ideal.ofBits .f32 0x41000000#32) := by
  rw [recTerm_eq]
  exact v28_at a0 a1

/-- The sum of all logarithms, divided by the constant. -/
theorem bppTerm_apply (l : Vec Ideal S8x256x1024 .f32) :
    bppTerm (F := Ideal) l ix0 = Ideal.div (logSum l) (Ideal.ofBits .f32 0xC6B17218#32) := by
  rw [bppTerm_eq]
  exact v2_at l

/-- The total loss: the three, each times one, added. -/
theorem loss_apply (m : (ℓ : Loc nD τ sig) → Buf (Elt Ideal) ℓ) (c : Dev nD) :
    (Cert.ReferenceIdeal.Value.res_main_v38 (F := Ideal) m c : S_.Idx → EReal) ix0
      = (Ideal.ofBits .f32 0x3F800000#32 * recTerm (F := Ideal) (m ((c.tc : Thread nD τ).loc main_arg0)) (m ((c.tc : Thread nD τ).loc main_arg1)) ix0
          + Ideal.ofBits .f32 0x3F800000#32 * clsTerm (F := Ideal) (m ((c.tc : Thread nD τ).loc main_arg2)) (m ((c.tc : Thread nD τ).loc main_arg3)) ix0)
        + Ideal.ofBits .f32 0x3F800000#32 * bppTerm (F := Ideal) (m ((c.tc : Thread nD τ).loc main_arg4)) ix0 := by
  rw [Read.val_main_v38_eq m c, recTerm_eq, clsTerm_eq, bppTerm_eq, Read.val_main_v38_apply, Read.val_main_v36_apply,
    Read.val_main_v34_apply, Read.val_main_v35_apply, Read.val_main_v37_apply, Read.val_main_cst_16_apply,
    Read.val_main_cst_17_apply, Read.val_main_cst_18_apply]
  rfl

end Cert.ReferenceIdeal.RefValue

end
-- ==== Proof.Claims.lean ====
/-
  The claims.

  Both idealized programs return (loss, reconstruction, classification, rate), where the loss is the sum of the three,
  each times one.

  Reconstruction. The kernel program returns the first distance kernel's total over 32768 plus the second's; the totals
  are the Chamfer sums in the two directions. The reference averages the nearest distances over the points (divide by
  4096), then over the batches (divide by 8), in both directions, taking its second direction's minimum over the FIRST
  cloud's points at a fixed point of the second: the same minimum with the clouds exchanged. A mean of means is one
  mean (`Cert.Chamfer.mean_of_means`), on all extended reals.

  Rate. Both divide the sum of the logarithms of all likelihoods by one constant; only the order of the sum differs.

  Classification. Both apply the same host operations to the logits and the labels.
-/
import proofs.«115082_j11184094838809_1_alg».proof.Defs
import proofs.«115082_j11184094838809_1_alg».proof.Proof.Gen.Kernel
import proofs.«115082_j11184094838809_1_alg».proof.Proof.Gen.Kernel.Frame
import proofs.«115082_j11184094838809_1_alg».proof.Proof.Gen.KernelIdeal
import proofs.«115082_j11184094838809_1_alg».proof.Proof.Gen.KernelIdeal.Frame
import proofs.«115082_j11184094838809_1_alg».proof.Proof.Gen.ReferenceIdeal
import proofs.«115082_j11184094838809_1_alg».proof.Proof.Gen.ReferenceIdeal.Run
import proofs.«115082_j11184094838809_1_alg».proof.Proof.Gen.Pre_finite_inputs
import proofs.«115082_j11184094838809_1_alg».proof.Proof.KernelRun
import proofs.«115082_j11184094838809_1_alg».proof.Proof.KernelValue
import proofs.«115082_j11184094838809_1_alg».proof.Proof.RefValue

noncomputable section

open Idealize.ShloMosaic Idealize.ShloMosaic.TcCoe Idealize.ShloMosaic.ValueIdx Idealize.SL.Sem

namespace Cert.Proof.Claims

open Cert.Chamfer

/-! ## The joins -/

/-- The reference's reconstruction loss is the kernel program's. -/
theorem rec_join (a0 a1 : Vec Ideal Cert.ReferenceIdeal.S8x4096x3 .f32) :
    Cert.ReferenceIdeal.RefValue.recTerm (F := Ideal) a0 a1 ix0
      = Ideal.div (chamSum a0 a1) (Ideal.ofBits .f32 0x47000000#32) + Ideal.div (chamSum a1 a0) (Ideal.ofBits .f32 0x47000000#32) := by
  rw [Cert.ReferenceIdeal.RefValue.recTerm_apply, mean_of_means, mean_of_means]
  rfl

/-- The two programs' classification chains are one function. -/
theorem cls_join (t : Vec Ideal Cert.ReferenceIdeal.S8x40 .f32) (lab : Vec Ideal Cert.ReferenceIdeal.S8x1 .i32) :
    Cert.ReferenceIdeal.RefValue.clsTerm (F := Ideal) t lab = Cert.KernelIdeal.Reads.clsTerm (F := Ideal) t lab := rfl

/-! ## The kernel program's run, its results named -/

section KernelRun

open Cert.KernelIdeal Cert.KernelIdeal.Gen

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = W9 m ρ c (Proc.devRef .tc main_v19)
      ∧ r.2.mem ((c.tc : Thread nD τ).loc main_v6) = W9 m ρ c (Proc.devRef .tc main_v6)
      ∧ r.2.mem ((c.tc : Thread nD τ).loc main_v14) = W9 m ρ c (Proc.devRef .tc main_v14)
      ∧ r.2.mem ((c.tc : Thread nD τ).loc main_v9) = W9 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v19 (by decide)), h c _ (mem_uc main_v6 (by decide)), h c _ (mem_uc main_v14 (by decide)),
      h c _ (mem_uc main_v9 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩)
    (run_W9 m ρ)

end KernelRun

/-! ## The five claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealized kernel program is the kernel program's own text read over the extended reals: no operation was
    replaced, so there is nothing to preserve. -/
theorem preserves : Cert.preserves_Kernel_KernelIdeal := trivial

/-- From memories that agree on the five arguments both programs run, and each of the reference's four results is the
    kernel program's: the reconstruction loss by `rec_join`, the rate loss as the same quotient of the same sum, the
    classification loss as the same host chain, the total as their sum. -/
theorem algebraic : Cert.algebraic_KernelIdeal_ReferenceIdeal := by
  intro m ρ m' ρ' _ hagree
  refine ⟨fun c => Cert.KernelIdeal.Gen.W9 m ρ c (Proc.devRef .tc Cert.KernelIdeal.main_v19), fun c => Cert.KernelIdeal.Gen.W9 m ρ c (Proc.devRef .tc Cert.KernelIdeal.main_v6), fun c => Cert.KernelIdeal.Gen.W9 m ρ c (Proc.devRef .tc Cert.KernelIdeal.main_v14), fun c => Cert.KernelIdeal.Gen.W9 m ρ c (Proc.devRef .tc Cert.KernelIdeal.main_v9),
    kernel_run m ρ, ?_⟩
  refine (θ_run Cert.ReferenceIdeal.defs _ _).mono (fun r h c => ?_) (Cert.ReferenceIdeal.Value.run (F := Ideal) m' ρ')
  obtain ⟨h38, h28, h33, h2, hargs⟩ := h c
  obtain ⟨g0, g1, g2, g3, g4⟩ := hagree c
  have erec : Cert.ReferenceIdeal.RefValue.recTerm (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) ix0
      = (Cert.KernelIdeal.Gen.W9 m ρ c (Proc.devRef .tc Cert.KernelIdeal.main_v6) : Cert.KernelIdeal.S_.Idx → EReal) ix0 := by
    rw [rec_join, g0, g1, Cert.KernelIdeal.Value.rec_value]
  have ecls : Cert.ReferenceIdeal.RefValue.clsTerm (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.KernelIdeal.Gen.W9 m ρ c (Proc.devRef .tc Cert.KernelIdeal.main_v14) := by
    rw [cls_join, g2, g3]
    exact (Cert.KernelIdeal.Reads.W9_v14 m ρ c).symm
  have ebpp : Cert.ReferenceIdeal.RefValue.bppTerm (F := Ideal) (m' ((c.tc : Thread Cert.ReferenceIdeal.nD Cert.ReferenceIdeal.τ).loc Cert.ReferenceIdeal.main_arg4)) ix0
      = (Cert.KernelIdeal.Gen.W9 m ρ c (Proc.devRef .tc Cert.KernelIdeal.main_v9) : Cert.KernelIdeal.S_.Idx → EReal) ix0 := by
    rw [Cert.ReferenceIdeal.RefValue.bppTerm_apply, g4, Cert.KernelIdeal.Value.bpp_value]
  refine ⟨h38.trans ?_, h28.trans ?_, h33.trans ?_, h2.trans ?_, hargs⟩
  · funext i
    obtain rfl : i = ix0 := eq_ix0 i
    dsimp only
    rw [Cert.ReferenceIdeal.RefValue.loss_apply, erec, ebpp, ecls, Cert.KernelIdeal.Reads.W9_v19_apply]
  · funext i
    obtain rfl : i = ix0 := eq_ix0 i
    dsimp only
    exact erec
  · exact ecls
  · funext i
    obtain rfl : i = ix0 := eq_ix0 i
    dsimp only
    exact ebpp

end Cert.Proof.Claims

end
-- ==== Proof.lean ====
/-
  The proof of `Cert.Claim`: the three frames, the (empty) idealization ledger, and the equality of the four results
  of the idealized kernel program and the idealized reference over the extended reals.

  The kernel program runs two distance kernels and a log-likelihood kernel; each adds one block's total per grid point
  into a 1 x 1 accumulator. Read as values (Proof/Region0, Region1, Region2 over Proof/ChamBody, BppBody), their result
  arrays end at the Chamfer sums in the two directions and at the sum of all logarithms. The reference computes the
  same sums with whole-array operations (Proof/RefValue); the mathematics both sides meet in is Proof/Spec, and the
  claims are assembled in Proof/Claims.
-/
import proofs.«115082_j11184094838809_1_alg».proof.Defs
import proofs.«115082_j11184094838809_1_alg».proof.Proof.Claims
import proofs.«115082_j11184094838809_1_alg».proof.Proof.Gen.Kernel
import proofs.«115082_j11184094838809_1_alg».proof.Proof.Gen.Kernel.Skeleton
import proofs.«115082_j11184094838809_1_alg».proof.Proof.Gen.Kernel.Launch
import proofs.«115082_j11184094838809_1_alg».proof.Proof.Gen.Kernel.Points
import proofs.«115082_j11184094838809_1_alg».proof.Proof.Gen.Kernel.Frame
import proofs.«115082_j11184094838809_1_alg».proof.Proof.Gen.KernelIdeal
import proofs.«115082_j11184094838809_1_alg».proof.Proof.Gen.KernelIdeal.Skeleton
import proofs.«115082_j11184094838809_1_alg».proof.Proof.Gen.KernelIdeal.Launch
import proofs.«115082_j11184094838809_1_alg».proof.Proof.Gen.KernelIdeal.Points
import proofs.«115082_j11184094838809_1_alg».proof.Proof.Gen.KernelIdeal.Frame
import proofs.«115082_j11184094838809_1_alg».proof.Proof.Gen.ReferenceIdeal
import proofs.«115082_j11184094838809_1_alg».proof.Proof.Gen.Pre_finite_inputs
import proofs.«115082_j11184094838809_1_alg».proof.Proof.Gen.ReferenceIdeal.Run
import proofs.«115082_j11184094838809_1_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
